-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S16x4096 : Shape := ⟨2, ![16, 4096]⟩
abbrev S1024x128 : Shape := ⟨2, ![1024, 128]⟩
abbrev S128x16 : Shape := ⟨2, ![128, 16]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S16x4096 : S_.BroadcastsInDim S16x4096 (![] : Fin 0 → Fin S16x4096.rank)
  reducesTo_S16x4096_S_d0_1 : S16x4096.ReducesTo [0, 1] S_
  bcast_S_S1024x128 : S_.BroadcastsInDim S1024x128 (![] : Fin 0 → Fin S1024x128.rank)
  reducesTo_S1024x128_S_d0_1 : S1024x128.ReducesTo [0, 1] S_
  bcast_S_S128x16 : S_.BroadcastsInDim S128x16 (![] : Fin 0 → Fin S128x16.rank)
  reducesTo_S128x16_S_d0_1 : S128x16.ReducesTo [0, 1] S_

variable [Facts]

def fn_part1 {F : FTy → Type} [FloatOps F] (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  main_v18

def fn {F : FTy → Type} [FloatOps F] (main_arg0 : FVec F S16x4096x1024 .f32) (main_arg1 : FVec F S16x4096 .f32) (main_arg2 : FVec F S1024x128 .f32) (main_arg3 : FVec F S128x16 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S128x16 .f32 := Host.absf main_arg3
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_v13 main_v16
-- ==== Kernel.lean ====
abbrev S16x4096x1024 : Shape := ⟨3, ![16, 4096, 1024]⟩
abbrev S16x4096 : Shape := ⟨2, ![16, 4096]⟩
abbrev S1024x128 : Shape := ⟨2, ![1024, 128]⟩
abbrev S128x16 : Shape := ⟨2, ![128, 16]⟩
abbrev S16x4096x1 : Shape := ⟨3, ![16, 4096, 1]⟩
abbrev S16x1x1024 : Shape := ⟨3, ![16, 1, 1024]⟩
abbrev S1x4096x1024 : Shape := ⟨3, ![1, 4096, 1024]⟩
abbrev S1x4096x1 : Shape := ⟨3, ![1, 4096, 1]⟩
abbrev S1x1x1024 : Shape := ⟨3, ![1, 1, 1024]⟩
abbrev S4096x1024 : Shape := ⟨2, ![4096, 1024]⟩
abbrev S4096x1 : Shape := ⟨2, ![4096, 1]⟩
abbrev S4096x128 : Shape := ⟨2, ![4096, 128]⟩
abbrev S4096x16 : Shape := ⟨2, ![4096, 16]⟩
abbrev S16 : Shape := ⟨1, ![16]⟩
abbrev S1x16 : Shape := ⟨2, ![1, 16]⟩
abbrev S16x1024 : Shape := ⟨2, ![16, 1024]⟩
abbrev S1x1024 : Shape := ⟨2, ![1, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16x4096x1024, .f32⟩
  | .hbm, ⟨1, _⟩ => ⟨S16x4096, .f32⟩
  | .hbm, ⟨2, _⟩ => ⟨S1024x128, .f32⟩
  | .hbm, ⟨3, _⟩ => ⟨S128x16, .f32⟩
  | .hbm, ⟨4, _⟩ => ⟨S16x4096x1, .f32⟩
  | .hbm, ⟨5, _⟩ => ⟨S16x1x1024, .f32⟩
  | .hbm, ⟨6, _⟩ => ⟨S16x1024, .f32⟩
  | .local _ .vmem, ⟨0, _⟩ => ⟨S1x4096x1024, .f32⟩
  | .local _ .vmem, ⟨1, _⟩ => ⟨S1x4096x1024, .f32⟩
  | .local _ .vmem, ⟨2, _⟩ => ⟨S1x4096x1, .f32⟩
  | .local _ .vmem, ⟨3, _⟩ => ⟨S1x4096x1, .f32⟩
  | .local _ .vmem, ⟨4, _⟩ => ⟨S1024x128, .f32⟩
  | .local _ .vmem, ⟨5, _⟩ => ⟨S128x16, .f32⟩
  | .local _ .vmem, ⟨6, _⟩ => ⟨S1x1x1024, .f32⟩
  | .local _ .vmem, ⟨7, _⟩ => ⟨S1x1x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S16x4096_S16x4096x1_0_1 : S16x4096.BroadcastsInDim S16x4096x1 (![0, 1] : Fin 2 → Fin S16x4096x1.rank)
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  inb_S1024x128_S1024x128_0_0 : ∀ a, (![0, 0] : Fin 2 → Nat) a + S1024x128.size a ≤ S1024x128.size a
  h_S1024x128 : 0 < S1024x128.numel
  inb_S128x16_S128x16_0_0 : ∀ a, (![0, 0] : Fin 2 → Nat) a + S128x16.size a ≤ S128x16.size a
  h_S128x16 : 0 < S128x16.numel
  broadcasts_S4096x1_S4096x16 : S4096x1.Broadcasts S4096x16
  reduces_S4096x16_S16 : S4096x16.Reduces [0] S16
  shapeCasts_S16_S1x16 : S16.ShapeCasts S1x16
  broadcasts_S1x16_S4096x16 : S1x16.Broadcasts S4096x16
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S16x1x1024_S16x1024 : S16x1x1024.ShapeCasts S16x1024
  dot_S4096x1024_S1024x128_S4096x128_1_0_0_1_n_n_wf : DotDims.WF S4096x1024 S1024x128 S4096x128 [1] [0] [0] [1] [] []
  dot_S4096x128_S128x16_S4096x16_1_0_0_1_n_n_wf : DotDims.WF S4096x128 S128x16 S4096x16 [1] [0] [0] [1] [] []
  dot_S4096x16_S4096x1024_S16x1024_0_0_1_1_n_n_wf : DotDims.WF S4096x16 S4096x1024 S16x1024 [0] [0] [1] [1] [] []
  dot_S1x16_S16x1024_S1x1024_1_0_0_1_n_n_wf : DotDims.WF S1x16 S16x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x1024.size a ≤ S16x4096x1024.size a
  hwx0_0 : ∀ i : grid0.Coords, EltTy.bits .f32 = 32 ∨ (Rect.block (s := S16x4096x1024) S1x4096x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x1.size a ≤ S16x4096x1.size a
  hwx0_1 : ∀ i : grid0.Coords, EltTy.bits .f32 = 32 ∨ (Rect.block (s := S16x4096x1) S1x4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x16.size a ≤ S128x16.size a
  hwx0_3 : ∀ i : grid0.Coords, EltTy.bits .f32 = 32 ∨ (Rect.block (s := S128x16) S128x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S16x1x1024.size a
  hwx0_4 : ∀ i : grid0.Coords, EltTy.bits .f32 = 32 ∨ (Rect.block (s := S16x1x1024) S1x1x1024.size (cc0_transform_4 i) (hinb0_4 i)).WholeWords (EltTy.packing .f32)

variable [Facts₀]

def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf
def dot_S4096x128_S128x16_S4096x16_1_0_0_1_n_n : DotDims S4096x128 S128x16 S4096x16 where
  lhsContracting := [1]
  rhsContracting := [0]
  lhsNonContracting := [0]
  rhsNonContracting := [1]
  lhsBatch := []
  rhsBatch := []
  wf := dot_S4096x128_S128x16_S4096x16_1_0_0_1_n_n_wf
def dot_S4096x16_S4096x1024_S16x1024_0_0_1_1_n_n : DotDims S4096x16 S4096x1024 S16x1024 where
  lhsContracting := [0]
  rhsContracting := [0]
  lhsNonContracting := [1]
  rhsNonContracting := [1]
  lhsBatch := []
  rhsBatch := []
  wf := dot_S4096x16_S4096x1024_S16x1024_0_0_1_1_n_n_wf
def dot_S1x16_S16x1024_S1x1024_1_0_0_1_n_n : DotDims S1x16 S16x1024 S1x1024 where
  lhsContracting := [1]
  rhsContracting := [0]
  lhsNonContracting := [0]
  rhsNonContracting := [1]
  lhsBatch := []
  rhsBatch := []
  wf := dot_S1x16_S16x1024_S1x1024_1_0_0_1_n_n_wf

abbrev win0_0 : Pipeline.Window sig grid0 :=
  Pipeline.Window.ofSpec (Memref.whole main_arg0) S1x4096x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x1024 : Shape := ⟨3, ![16, 4096, 1024]⟩
abbrev S16x4096 : Shape := ⟨2, ![16, 4096]⟩
abbrev S1024x128 : Shape := ⟨2, ![1024, 128]⟩
abbrev S128x16 : Shape := ⟨2, ![128, 16]⟩
abbrev S16x4096x128 : Shape := ⟨3, ![16, 4096, 128]⟩
abbrev S16x4096x16 : Shape := ⟨3, ![16, 4096, 16]⟩
abbrev S16x4096x1 : Shape := ⟨3, ![16, 4096, 1]⟩
abbrev S_ : Shape := ⟨0, ![]⟩
abbrev S16x16 : Shape := ⟨2, ![16, 16]⟩
abbrev S16x1x16 : Shape := ⟨3, ![16, 1, 16]⟩
abbrev S16x16x1024 : Shape := ⟨3, ![16, 16, 1024]⟩
abbrev S16x1024 : Shape := ⟨2, ![16, 1024]⟩

abbrev nBuf : Space → Nat
  | .hbm => 38
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096, .f32⟩
  | .hbm, ⟨2, _⟩ => ⟨S1024x128, .f32⟩
  | .hbm, ⟨3, _⟩ => ⟨S128x16, .f32⟩
  | .hbm, ⟨4, _⟩ => ⟨S16x4096x128, .f32⟩
  | .hbm, ⟨5, _⟩ => ⟨S16x4096x128, .f32⟩
  | .hbm, ⟨6, _⟩ => ⟨S16x4096x16, .f32⟩
  | .hbm, ⟨7, _⟩ => ⟨S16x4096x1, .f32⟩
  | .hbm, ⟨8, _⟩ => ⟨S16x4096x16, .f32⟩
  | .hbm, ⟨9, _⟩ => ⟨S16x4096x16, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S_, .f32⟩
  | .hbm, ⟨14, _⟩ => ⟨S16x4096x1, .f32⟩
  | .hbm, ⟨15, _⟩ => ⟨S16x4096x1, .f32⟩
  | .hbm, ⟨16, _⟩ => ⟨S16x4096x16, .f32⟩
  | .hbm, ⟨17, _⟩ => ⟨S16x4096x16, .f32⟩
  | .hbm, ⟨18, _⟩ => ⟨S_, .f32⟩
  | .hbm, ⟨19, _⟩ => ⟨S16x16, .f32⟩
  | .hbm, ⟨20, _⟩ => ⟨S_, .f32⟩
  | .hbm, ⟨21, _⟩ => ⟨S16x16, .f32⟩
  | .hbm, ⟨22, _⟩ => ⟨S16x16, .f32⟩
  | .hbm, ⟨23, _⟩ => ⟨S16x1x16, .f32⟩
  | .hbm, ⟨24, _⟩ => ⟨S16x4096x16, .f32⟩
  | .hbm, ⟨25, _⟩ => ⟨S16x4096x16, .f32⟩
  | .hbm, ⟨26, _⟩ => ⟨S16x4096x16, .f32⟩
  | .hbm, ⟨27, _⟩ => ⟨S_, .f32⟩
  | .hbm, ⟨28, _⟩ => ⟨S16x16, .f32⟩
  | .hbm, ⟨29, _⟩ => ⟨S16x1x16, .f32⟩
  | .hbm, ⟨30, _⟩ => ⟨S16x4096x16, .f32⟩
  | .hbm, ⟨31, _⟩ => ⟨S16x4096x16, .f32⟩
  | .hbm, ⟨32, _⟩ => ⟨S16x16x1024, .f32⟩
  | .hbm, ⟨33, _⟩ => ⟨S_, .f32⟩
  | .hbm, ⟨34, _⟩ => ⟨S16x1024, .f32⟩
  | .hbm, ⟨35, _⟩ => ⟨S_, .f32⟩
  | .hbm, ⟨36, _⟩ => ⟨S16x1024, .f32⟩
  | .hbm, ⟨37, _⟩ => ⟨S16x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S16x4096_S16x4096x1_0_1 : S16x4096.BroadcastsInDim S16x4096x1 (![0, 1] : Fin 2 → Fin S16x4096x1.rank)
  bcast_S16x4096x1_S16x4096x16_0_1_2 : S16x4096x1.BroadcastsInDim S16x4096x16 (![0, 1, 2] : Fin 3 → Fin S16x4096x16.rank)
  bcast_S_S16x4096x1 : S_.BroadcastsInDim S16x4096x1 (![] : Fin 0 → Fin S16x4096x1.rank)
  reducesTo_S16x4096x16_S16x16_d1 : S16x4096x16.ReducesTo [1] S16x16
  h_S_ : 0 < S_.numel
  bcast_S_S16x16 : S_.BroadcastsInDim S16x16 (![] : Fin 0 → Fin S16x16.rank)
  bcast_S16x16_S16x1x16_0_2 : S16x16.BroadcastsInDim S16x1x16 (![0, 2] : Fin 2 → Fin S16x1x16.rank)
  bcast_S16x1x16_S16x4096x16_0_1_2 : S16x1x16.BroadcastsInDim S16x4096x16 (![0, 1, 2] : Fin 3 → Fin S16x4096x16.rank)
  reducesTo_S16x16x1024_S16x1024_d1 : S16x16x1024.ReducesTo [1] S16x1024
  bcast_S_S16x1024 : S_.BroadcastsInDim S16x1024 (![] : Fin 0 → Fin S16x1024.rank)
  dot_S16x4096x1024_S1024x128_S16x4096x128_2_0_01_1_n_n_wf : DotDims.WF S16x4096x1024 S1024x128 S16x4096x128 [2] [0] [0, 1] [1] [] []
  dot_S16x4096x128_S128x16_S16x4096x16_2_0_01_1_n_n_wf : DotDims.WF S16x4096x128 S128x16 S16x4096x16 [2] [0] [0, 1] [1] [] []
  dot_S16x4096x16_S16x4096x1024_S16x16x1024_1_1_2_2_0_0_wf : DotDims.WF S16x4096x16 S16x4096x1024 S16x16x1024 [1] [1] [2] [2] [0] [0]

variable [Facts₀]

def dot_S16x4096x1024_S1024x128_S16x4096x128_2_0_01_1_n_n : DotDims S16x4096x1024 S1024x128 S16x4096x128 where
  lhsContracting := [2]
  rhsContracting := [0]
  lhsNonContracting := [0, 1]
  rhsNonContracting := [1]
  lhsBatch := []
  rhsBatch := []
  wf := dot_S16x4096x1024_S1024x128_S16x4096x128_2_0_01_1_n_n_wf
def dot_S16x4096x128_S128x16_S16x4096x16_2_0_01_1_n_n : DotDims S16x4096x128 S128x16 S16x4096x16 where
  lhsContracting := [2]
  rhsContracting := [0]
  lhsNonContracting := [0, 1]
  rhsNonContracting := [1]
  lhsBatch := []
  rhsBatch := []
  wf := dot_S16x4096x128_S128x16_S16x4096x16_2_0_01_1_n_n_wf
def dot_S16x4096x16_S16x4096x1024_S16x16x1024_1_1_2_2_0_0 : DotDims S16x4096x16 S16x4096x1024 S16x16x1024 where
  lhsContracting := [1]
  rhsContracting := [1]
  lhsNonContracting := [2]
  rhsNonContracting := [2]
  lhsBatch := [0]
  rhsBatch := [0]
  wf := dot_S16x4096x16_S16x4096x1024_S16x16x1024_1_1_2_2_0_0_wf

class Facts : Prop extends Facts₀ where

variable [Facts]
-- ==== Proof.LibIx2.lean ====
/-
  Two general readings at an entry of a rank-two result.

  A product with ONE contracted axis, into a zero accumulator, is at entry (p, n) the sum over the contracted
  coordinate k of the left operand at L k times the right at R k, once the operand indices at the contraction
  position whose one coordinate is k are known to be L k and R k (whatever the operands' shapes and whichever of
  their axes is contracted).  And a column [a, 1] broadcast along its rows to [a, b] reads, at (p, c), the
  column's entry p.
-/
import Idealize.ShloMosaic.Lib.Pipeline.Value
import Idealize.ShloMosaic.Lib.ValueIdx
import Idealize.ShloMosaic.PureOps.Ideal.Laws

noncomputable section

namespace Cert.LibIx2

open Idealize.ShloMosaic Idealize.ShloMosaic.ValueIdx
open scoped BigOperators

/-- A product with one contracted axis of extent K, into the zero accumulator, at entry (p, n): the sum over
    k of the left operand at L k times the right at R k, where L k and R k are the operand indices at the
    contraction position whose one coordinate is k. -/
theorem matmul_zero_ix2 {sl sr : Shape} {M N K : ℕ} (D : DotDims sl sr ⟨2, ![M, N]⟩) (hr : D.contr.rank = 1)
    (hs : D.contr.size ⟨0, by omega⟩ = K) (l : FVec Ideal sl .f32) (r : FVec Ideal sr .f32) (p : Fin M) (n : Fin N)
    (L : Fin K → sl.Idx) (R : Fin K → sr.Idx)
    (hL : ∀ (k : Fin K) (q : D.contr.Idx), (q ⟨0, by omega⟩ : ℕ) = k.val → D.lhsIdx (ix2 p n) q = L k)
    (hR : ∀ (k : Fin K) (q : D.contr.Idx), (q ⟨0, by omega⟩ : ℕ) = k.val → D.rhsIdx (ix2 p n) q = R k) :
    matmul D none l r (constant ⟨2, ![M, N]⟩ .f32 0x00000000#32) (ix2 p n) = ∑ k : Fin K, l (L k) * r (R k) := by
  simp only [matmul]
  rw [Ideal.matmul_constant_zero_apply, ← Equiv.sum_comp (contrEquiv1 D K hr hs).symm]
  refine Finset.sum_congr rfl fun k _ => ?_
  rw [hL k _ (contrEquiv1_symm_val D K hr hs k), hR k _ (contrEquiv1_symm_val D K hr hs k)]

/-- A column [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibIx2

end
-- ==== Proof.KernelDots.lean ====
/-
  The kernel's four matrix products read at an entry. Into a zero accumulator a product's entry is the sum over
  the contracted coordinate of the operands' products, once the operand indices are named coordinate by
  coordinate; the four products supply theirs. Three of them contract the left operand's columns with the right
  operand's rows; the third (weights against the slab) contracts the ROWS of both, the transposed-left product.
-/
import proofs.«156924_g77549929497260_feedfinal_589_2_alg».proof.Proof.Gen.KernelIdeal
import proofs.«156924_g77549929497260_feedfinal_589_2_alg».proof.Proof.LibIx2
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx Cert.LibIx2
open scoped BigOperators

/-! ### Slab times first weights: [4096, 1024] × [1024, 128] -/

theorem lhs_hid_0 (i : S4096x128.Idx) (q : dot_S4096x1024_S1024x128_S4096x128_1_0_0_1_n_n.contr.Idx) : (dot_S4096x1024_S1024x128_S4096x128_1_0_0_1_n_n.lhsIdx i q 0).val = (i 0).val := by
  unfold DotDims.lhsIdx
  rw [dif_neg (show ¬(0 : Fin S4096x1024.rank) ∈ dot_S4096x1024_S1024x128_S4096x128_1_0_0_1_n_n.lhsBatch by decide),
    dif_pos (show (0 : Fin S4096x1024.rank) ∈ dot_S4096x1024_S1024x128_S4096x128_1_0_0_1_n_n.lhsNonContracting by decide)]
  rfl
theorem lhs_hid_1 (i : S4096x128.Idx) (q : dot_S4096x1024_S1024x128_S4096x128_1_0_0_1_n_n.contr.Idx) : (dot_S4096x1024_S1024x128_S4096x128_1_0_0_1_n_n.lhsIdx i q 1).val = (q ⟨0, by decide⟩).val :=
  dot_S4096x1024_S1024x128_S4096x128_1_0_0_1_n_n.lhsIdx_val_of_single rfl i q
theorem rhs_hid_0 (i : S4096x128.Idx) (q : dot_S4096x1024_S1024x128_S4096x128_1_0_0_1_n_n.contr.Idx) : (dot_S4096x1024_S1024x128_S4096x128_1_0_0_1_n_n.rhsIdx i q 0).val = (q ⟨0, by decide⟩).val :=
  dot_S4096x1024_S1024x128_S4096x128_1_0_0_1_n_n.rhsIdx_val_of_single rfl i q
theorem rhs_hid_1 (i : S4096x128.Idx) (q : dot_S4096x1024_S1024x128_S4096x128_1_0_0_1_n_n.contr.Idx) : (dot_S4096x1024_S1024x128_S4096x128_1_0_0_1_n_n.rhsIdx i q 1).val = (i 1).val := by
  unfold DotDims.rhsIdx
  rw [dif_neg (show ¬(1 : Fin S1024x128.rank) ∈ dot_S4096x1024_S1024x128_S4096x128_1_0_0_1_n_n.rhsBatch by decide),
    dif_pos (show (1 : Fin S1024x128.rank) ∈ dot_S4096x1024_S1024x128_S4096x128_1_0_0_1_n_n.rhsNonContracting by decide)]
  rfl

theorem matmul_hid_apply (l : FVec Ideal S4096x1024 .f32) (r : FVec Ideal S1024x128 .f32) (p : Fin 4096) (n : Fin 128) :
    matmul dot_S4096x1024_S1024x128_S4096x128_1_0_0_1_n_n none l r (constant S4096x128 .f32 0x00000000#32) (ix2 p n) = ∑ k : Fin 1024, l (ix2 p k) * r (ix2 k n) :=
  matmul_zero_ix2 dot_S4096x1024_S1024x128_S4096x128_1_0_0_1_n_n rfl rfl l r p n (fun k => ix2 p k) (fun k => ix2 k n)
    (fun k q hk => funext fun a => Fin.ext (by
      match a with
      | ⟨0, _⟩ => exact lhs_hid_0 _ _
      | ⟨1, _⟩ => exact (lhs_hid_1 _ _).trans hk))
    (fun k q hk => funext fun a => Fin.ext (by
      match a with
      | ⟨0, _⟩ => exact (rhs_hid_0 _ _).trans hk
      | ⟨1, _⟩ => exact rhs_hid_1 _ _))

/-! ### Hidden layer times second weights: [4096, 128] × [128, 16] -/

theorem lhs_lg_0 (i : S4096x16.Idx) (q : dot_S4096x128_S128x16_S4096x16_1_0_0_1_n_n.contr.Idx) : (dot_S4096x128_S128x16_S4096x16_1_0_0_1_n_n.lhsIdx i q 0).val = (i 0).val := by
  unfold DotDims.lhsIdx
  rw [dif_neg (show ¬(0 : Fin S4096x128.rank) ∈ dot_S4096x128_S128x16_S4096x16_1_0_0_1_n_n.lhsBatch by decide),
    dif_pos (show (0 : Fin S4096x128.rank) ∈ dot_S4096x128_S128x16_S4096x16_1_0_0_1_n_n.lhsNonContracting by decide)]
  rfl
theorem lhs_lg_1 (i : S4096x16.Idx) (q : dot_S4096x128_S128x16_S4096x16_1_0_0_1_n_n.contr.Idx) : (dot_S4096x128_S128x16_S4096x16_1_0_0_1_n_n.lhsIdx i q 1).val = (q ⟨0, by decide⟩).val :=
  dot_S4096x128_S128x16_S4096x16_1_0_0_1_n_n.lhsIdx_val_of_single rfl i q
theorem rhs_lg_0 (i : S4096x16.Idx) (q : dot_S4096x128_S128x16_S4096x16_1_0_0_1_n_n.contr.Idx) : (dot_S4096x128_S128x16_S4096x16_1_0_0_1_n_n.rhsIdx i q 0).val = (q ⟨0, by decide⟩).val :=
  dot_S4096x128_S128x16_S4096x16_1_0_0_1_n_n.rhsIdx_val_of_single rfl i q
theorem rhs_lg_1 (i : S4096x16.Idx) (q : dot_S4096x128_S128x16_S4096x16_1_0_0_1_n_n.contr.Idx) : (dot_S4096x128_S128x16_S4096x16_1_0_0_1_n_n.rhsIdx i q 1).val = (i 1).val := by
  unfold DotDims.rhsIdx
  rw [dif_neg (show ¬(1 : Fin S128x16.rank) ∈ dot_S4096x128_S128x16_S4096x16_1_0_0_1_n_n.rhsBatch by decide),
    dif_pos (show (1 : Fin S128x16.rank) ∈ dot_S4096x128_S128x16_S4096x16_1_0_0_1_n_n.rhsNonContracting by decide)]
  rfl

theorem matmul_lg_apply (l : FVec Ideal S4096x128 .f32) (r : FVec Ideal S128x16 .f32) (p : Fin 4096) (n : Fin 16) :
    matmul dot_S4096x128_S128x16_S4096x16_1_0_0_1_n_n none l r (constant S4096x16 .f32 0x00000000#32) (ix2 p n) = ∑ k : Fin 128, l (ix2 p k) * r (ix2 k n) :=
  matmul_zero_ix2 dot_S4096x128_S128x16_S4096x16_1_0_0_1_n_n rfl rfl l r p n (fun k => ix2 p k) (fun k => ix2 k n)
    (fun k q hk => funext fun a => Fin.ext (by
      match a with
      | ⟨0, _⟩ => exact lhs_lg_0 _ _
      | ⟨1, _⟩ => exact (lhs_lg_1 _ _).trans hk))
    (fun k q hk => funext fun a => Fin.ext (by
      match a with
      | ⟨0, _⟩ => exact (rhs_lg_0 _ _).trans hk
      | ⟨1, _⟩ => exact rhs_lg_1 _ _))

/-! ### Weights against the slab, both contracted along their rows: [4096, 16]ᵀ × [4096, 1024] -/

theorem lhs_acc_0 (i : S16x1024.Idx) (q : dot_S4096x16_S4096x1024_S16x1024_0_0_1_1_n_n.contr.Idx) : (dot_S4096x16_S4096x1024_S16x1024_0_0_1_1_n_n.lhsIdx i q 0).val = (q ⟨0, by decide⟩).val :=
  dot_S4096x16_S4096x1024_S16x1024_0_0_1_1_n_n.lhsIdx_val_of_single rfl i q
theorem lhs_acc_1 (i : S16x1024.Idx) (q : dot_S4096x16_S4096x1024_S16x1024_0_0_1_1_n_n.contr.Idx) : (dot_S4096x16_S4096x1024_S16x1024_0_0_1_1_n_n.lhsIdx i q 1).val = (i 0).val := by
  unfold DotDims.lhsIdx
  rw [dif_neg (show ¬(1 : Fin S4096x16.rank) ∈ dot_S4096x16_S4096x1024_S16x1024_0_0_1_1_n_n.lhsBatch by decide),
    dif_pos (show (1 : Fin S4096x16.rank) ∈ dot_S4096x16_S4096x1024_S16x1024_0_0_1_1_n_n.lhsNonContracting by decide)]
  rfl
theorem rhs_acc_0 (i : S16x1024.Idx) (q : dot_S4096x16_S4096x1024_S16x1024_0_0_1_1_n_n.contr.Idx) : (dot_S4096x16_S4096x1024_S16x1024_0_0_1_1_n_n.rhsIdx i q 0).val = (q ⟨0, by decide⟩).val :=
  dot_S4096x16_S4096x1024_S16x1024_0_0_1_1_n_n.rhsIdx_val_of_single rfl i q
theorem rhs_acc_1 (i : S16x1024.Idx) (q : dot_S4096x16_S4096x1024_S16x1024_0_0_1_1_n_n.contr.Idx) : (dot_S4096x16_S4096x1024_S16x1024_0_0_1_1_n_n.rhsIdx i q 1).val = (i 1).val := by
  unfold DotDims.rhsIdx
  rw [dif_neg (show ¬(1 : Fin S4096x1024.rank) ∈ dot_S4096x16_S4096x1024_S16x1024_0_0_1_1_n_n.rhsBatch by decide),
    dif_pos (show (1 : Fin S4096x1024.rank) ∈ dot_S4096x16_S4096x1024_S16x1024_0_0_1_1_n_n.rhsNonContracting by decide)]
  rfl

theorem matmul_acc_apply (l : FVec Ideal S4096x16 .f32) (r : FVec Ideal S4096x1024 .f32) (p : Fin 16) (n : Fin 1024) :
    matmul dot_S4096x16_S4096x1024_S16x1024_0_0_1_1_n_n none l r (constant S16x1024 .f32 0x00000000#32) (ix2 p n) = ∑ k : Fin 4096, l (ix2 k p) * r (ix2 k n) :=
  matmul_zero_ix2 dot_S4096x16_S4096x1024_S16x1024_0_0_1_1_n_n rfl rfl l r p n (fun k => ix2 k p) (fun k => ix2 k n)
    (fun k q hk => funext fun a => Fin.ext (by
      match a with
      | ⟨0, _⟩ => exact (lhs_acc_0 _ _).trans hk
      | ⟨1, _⟩ => exact lhs_acc_1 _ _))
    (fun k q hk => funext fun a => Fin.ext (by
      match a with
      | ⟨0, _⟩ => exact (rhs_acc_0 _ _).trans hk
      | ⟨1, _⟩ => exact rhs_acc_1 _ _))

/-! ### The row of reciprocals times the accumulated matrix: [1, 16] × [16, 1024] -/

theorem lhs_out_0 (i : S1x1024.Idx) (q : dot_S1x16_S16x1024_S1x1024_1_0_0_1_n_n.contr.Idx) : (dot_S1x16_S16x1024_S1x1024_1_0_0_1_n_n.lhsIdx i q 0).val = (i 0).val := by
  unfold DotDims.lhsIdx
  rw [dif_neg (show ¬(0 : Fin S1x16.rank) ∈ dot_S1x16_S16x1024_S1x1024_1_0_0_1_n_n.lhsBatch by decide),
    dif_pos (show (0 : Fin S1x16.rank) ∈ dot_S1x16_S16x1024_S1x1024_1_0_0_1_n_n.lhsNonContracting by decide)]
  rfl
theorem lhs_out_1 (i : S1x1024.Idx) (q : dot_S1x16_S16x1024_S1x1024_1_0_0_1_n_n.contr.Idx) : (dot_S1x16_S16x1024_S1x1024_1_0_0_1_n_n.lhsIdx i q 1).val = (q ⟨0, by decide⟩).val :=
  dot_S1x16_S16x1024_S1x1024_1_0_0_1_n_n.lhsIdx_val_of_single rfl i q
theorem rhs_out_0 (i : S1x1024.Idx) (q : dot_S1x16_S16x1024_S1x1024_1_0_0_1_n_n.contr.Idx) : (dot_S1x16_S16x1024_S1x1024_1_0_0_1_n_n.rhsIdx i q 0).val = (q ⟨0, by decide⟩).val :=
  dot_S1x16_S16x1024_S1x1024_1_0_0_1_n_n.rhsIdx_val_of_single rfl i q
theorem rhs_out_1 (i : S1x1024.Idx) (q : dot_S1x16_S16x1024_S1x1024_1_0_0_1_n_n.contr.Idx) : (dot_S1x16_S16x1024_S1x1024_1_0_0_1_n_n.rhsIdx i q 1).val = (i 1).val := by
  unfold DotDims.rhsIdx
  rw [dif_neg (show ¬(1 : Fin S16x1024.rank) ∈ dot_S1x16_S16x1024_S1x1024_1_0_0_1_n_n.rhsBatch by decide),
    dif_pos (show (1 : Fin S16x1024.rank) ∈ dot_S1x16_S16x1024_S1x1024_1_0_0_1_n_n.rhsNonContracting by decide)]
  rfl

theorem matmul_out_apply (l : FVec Ideal S1x16 .f32) (r : FVec Ideal S16x1024 .f32) (p : Fin 1) (n : Fin 1024) :
    matmul dot_S1x16_S16x1024_S1x1024_1_0_0_1_n_n none l r (constant S1x1024 .f32 0x00000000#32) (ix2 p n) = ∑ k : Fin 16, l (ix2 p k) * r (ix2 k n) :=
  matmul_zero_ix2 dot_S1x16_S16x1024_S1x1024_1_0_0_1_n_n rfl rfl l r p n (fun k => ix2 p k) (fun k => ix2 k n)
    (fun k q hk => funext fun a => Fin.ext (by
      match a with
      | ⟨0, _⟩ => exact lhs_out_0 _ _
      | ⟨1, _⟩ => exact (lhs_out_1 _ _).trans hk))
    (fun k q hk => funext fun a => Fin.ext (by
      match a with
      | ⟨0, _⟩ => exact (rhs_out_0 _ _).trans hk
      | ⟨1, _⟩ => exact rhs_out_1 _ _))

end Cert.KernelIdeal.Hand

end
-- ==== Proof.LibRealVariance.lean ====
/-
  The calculus of "this extended real is a real number", and the variance law.

  A float is read as an extended real; the sum, difference and product of two extended reals that
  are real numbers are the real sum, difference and product, and a quotient by a nonzero real is the
  real quotient. So a column of real numbers has a real mean, and its variance computed as
  E[a²] − E[a]² equals the variance computed as E[(a − E a)²]: the identity is the textbook one in ℝ,
  carried back along the embedding ℝ → [-∞, +∞]. (At an infinity the two differ; that is why every
  entry is assumed real.)
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.BigOperators.Group.Finset.Sigma
import Mathlib.Algebra.Order.BigOperators.Group.Finset
import Mathlib.Logic.Equiv.Fin.Basic
import Mathlib.Tactic.FieldSimp
import Mathlib.Tactic.Ring
import Mathlib.Tactic.NormNum

noncomputable section

namespace Cert.Alg

open Idealize.ShloMosaic
open scoped BigOperators

/-- An extended real that is a real number. -/
def IsReal (x : EReal) : Prop := ∃ r : ℝ, x = (r : EReal)

namespace IsReal

/-- A real number, embedded, is a real number. -/
theorem coe (r : ℝ) : IsReal (r : EReal) := ⟨r, rfl⟩

theorem zero : IsReal 0 := ⟨0, rfl⟩

theorem one : IsReal 1 := ⟨1, rfl⟩

/-- The sum of two reals is the real sum. -/
theorem add {x y : EReal} (hx : IsReal x) (hy : IsReal y) : IsReal (x + y) := by
  obtain ⟨a, rfl⟩ := hx
  obtain ⟨b, rfl⟩ := hy
  exact ⟨a + b, (EReal.coe_add a b).symm⟩

/-- The negation of a real is the real negation. -/
theorem neg {x : EReal} (hx : IsReal x) : IsReal (-x) := by
  obtain ⟨a, rfl⟩ := hx
  exact ⟨-a, (EReal.coe_neg a).symm⟩

/-- The difference of two reals is the real difference. -/
theorem sub {x y : EReal} (hx : IsReal x) (hy : IsReal y) : IsReal (x - y) := by
  obtain ⟨a, rfl⟩ := hx
  obtain ⟨b, rfl⟩ := hy
  exact ⟨a - b, (EReal.coe_sub a b).symm⟩

/-- The product of two reals is the real product. -/
theorem mul {x y : EReal} (hx : IsReal x) (hy : IsReal y) : IsReal (x * y) := by
  obtain ⟨a, rfl⟩ := hx
  obtain ⟨b, rfl⟩ := hy
  exact ⟨a * b, (EReal.coe_mul a b).symm⟩

/-- The greater of two reals is one of them. -/
theorem max {x y : EReal} (hx : IsReal x) (hy : IsReal y) : IsReal (max x y) := by
  rcases max_choice x y with h | h <;> rw [h] <;> assumption

/-- The lesser of two reals is one of them. -/
theorem min {x y : EReal} (hx : IsReal x) (hy : IsReal y) : IsReal (min x y) := by
  rcases min_choice x y with h | h <;> rw [h] <;> assumption

/-- A finite sum of reals is a real: by induction on the index set. -/
theorem finset_sum {ι : Type*} (s : Finset ι) (a : ι → EReal) (h : ∀ i ∈ s, IsReal (a i)) :
    IsReal (∑ i ∈ s, a i) := by
  classical
  induction s using Finset.induction_on with
  | empty => simpa using zero
  | insert j s hj ih =>
    rw [Finset.sum_insert hj]
    exact add (h j (Finset.mem_insert_self j s)) (ih fun i hi => h i (Finset.mem_insert_of_mem hi))

/-- The sum of a whole finite family of reals is a real. -/
theorem sum {ι : Type*} [Fintype ι] (a : ι → EReal) (h : ∀ i, IsReal (a i)) : IsReal (∑ i, a i) :=
  finset_sum Finset.univ a fun i _ => h i

/-- The quotient of a real by a nonzero real is the real quotient (the product with the reciprocal). -/
theorem div {x y : EReal} (hx : IsReal x) (hy : IsReal y) (hy0 : y ≠ 0) : IsReal (Ideal.div x y) := by
  obtain ⟨b, rfl⟩ := hy
  have hb : b ≠ 0 := fun h => hy0 (by rw [h]; rfl)
  rw [Ideal.div_coe hb]
  exact mul hx (coe _)

/-- The reciprocal square root of a positive real r is the real (√r)⁻¹. -/
theorem rsqrt_of_pos {x : EReal} (hx : IsReal x) (h0 : 0 < x) : IsReal (Ideal.rsqrt x) := by
  obtain ⟨r, rfl⟩ := hx
  have hr : 0 < r := EReal.coe_pos.mp h0
  rw [Ideal.rsqrt_coe, if_neg (not_lt.mpr hr.le), if_neg hr.ne']
  exact coe _

end IsReal

/-- A real number is an extended real that is neither infinity. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- An extended real whose absolute value, max x (-x), is below +∞ is a real number: at ⊤ the
    first argument is ⊤, at ⊥ the second is. -/
theorem isReal_of_abs_lt_top {x : EReal} (h : max x (-x) < ⊤) : IsReal x := by
  rw [isReal_iff]
  constructor
  · rintro rfl
    exact absurd h (by simp)
  · rintro rfl
    exact absurd h (by simp)

/-! ### The four literals -/

/-- The pattern of 200000.0 denotes the real 200000. -/
theorem ofBits_N : Ideal.ofBits .f32 0x48435000#32 = ((200000 : ℝ) : EReal) := by
  simp [Ideal.ofBits, Ideal.ieee, -EReal.coe_mul]; norm_num

/-- The pattern of +0.0 denotes 0. -/
theorem ofBits_zero : Ideal.ofBits .f32 0x00000000#32 = 0 := Ideal.ofBits_zero_f32

/-- The pattern of 1.0 denotes the real 1. -/
theorem ofBits_one : Ideal.ofBits .f32 0x3F800000#32 = ((1 : ℝ) : EReal) := by
  simp [Ideal.ofBits, Ideal.ieee, -EReal.coe_mul]; norm_num

/-- The pattern 0x3727C5AC (the float nearest 1e-5) denotes a positive real, 10995116 · 2⁻⁴⁰.
    Only its sign and finiteness are used. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ### Sums of reals -/

/-- The embedding of the reals carries a finite sum to the sum of the embedded terms. -/
theorem coe_finset_sum {ι : Type*} (s : Finset ι) (r : ι → ℝ) :
    ((∑ i ∈ s, r i : ℝ) : EReal) = ∑ i ∈ s, (r i : EReal) := by
  classical
  induction s using Finset.induction_on with
  | empty => simp
  | insert j s hj ih => rw [Finset.sum_insert hj, Finset.sum_insert hj, EReal.coe_add, ih]

/-- The mean of a column of embedded reals over a nonzero real count is the embedded real mean. -/
theorem div_sum_coe {ι : Type*} [Fintype ι] (r : ι → ℝ) {N : ℝ} (hN0 : N ≠ 0) :
    Ideal.div (∑ i, (r i : EReal)) (N : EReal) = (((∑ i, r i) * (1 / N) : ℝ) : EReal) := by
  rw [Ideal.div_coe hN0, ← coe_finset_sum, ← EReal.coe_mul]

/-! ### The variance law in ℝ -/

/-- The sum of squared deviations from any m, expanded. -/
theorem real_sum_sq_dev {ι : Type*} [Fintype ι] (r : ι → ℝ) (m : ℝ) :
    ∑ i, (r i - m) * (r i - m)
      = (∑ i, r i * r i) - 2 * m * (∑ i, r i) + (Fintype.card ι : ℝ) * (m * m) := by
  have h : ∀ i, (r i - m) * (r i - m) = r i * r i - 2 * m * r i + m * m := fun i => by ring
  simp only [h, Finset.sum_add_distrib, Finset.sum_sub_distrib, ← Finset.mul_sum, Finset.sum_const,
    Finset.card_univ, nsmul_eq_mul]
  ring

/-- E[r²] − E[r]² = E[(r − E r)²] over N ≠ 0 real entries. -/
theorem real_variance_eq {ι : Type*} [Fintype ι] (r : ι → ℝ) (N : ℝ)
    (hN : (Fintype.card ι : ℝ) = N) (hN0 : N ≠ 0) :
    (∑ i, r i * r i) * (1 / N) - (∑ i, r i) * (1 / N) * ((∑ i, r i) * (1 / N))
      = (∑ i, (r i - (∑ i, r i) * (1 / N)) * (r i - (∑ i, r i) * (1 / N))) * (1 / N) := by
  rw [real_sum_sq_dev, hN]
  field_simp
  ring

/-- The mean of squared deviations is a nonnegative real: a sum of squares times 1 / N, N a count. -/
theorem real_variance_nonneg {ι : Type*} [Fintype ι] (r : ι → ℝ) (m : ℝ) (N : ℝ)
    (hN : (Fintype.card ι : ℝ) = N) :
    0 ≤ (∑ i, (r i - m) * (r i - m)) * (1 / N) := by
  have hN' : 0 ≤ N := hN ▸ Nat.cast_nonneg _
  exact mul_nonneg (Finset.sum_nonneg fun i _ => mul_self_nonneg _) (one_div_nonneg.mpr hN')

/-! ### The variance law at the extended reals -/

/-- The mean of squared deviations of a column of embedded reals is the embedded real one. -/
theorem div_sum_sq_dev_coe {ι : Type*} [Fintype ι] (r : ι → ℝ) {N : ℝ} (hN0 : N ≠ 0) :
    Ideal.div (∑ i, ((r i : EReal) - Ideal.div (∑ i, (r i : EReal)) (N : EReal))
        * ((r i : EReal) - Ideal.div (∑ i, (r i : EReal)) (N : EReal))) (N : EReal)
      = (((∑ i, (r i - (∑ i, r i) * (1 / N)) * (r i - (∑ i, r i) * (1 / N))) * (1 / N) : ℝ) : EReal) := by
  simp only [div_sum_coe r hN0, ← EReal.coe_sub, ← EReal.coe_mul]
  exact div_sum_coe (fun i => (r i - (∑ i, r i) * (1 / N)) * (r i - (∑ i, r i) * (1 / N))) hN0

/-- THE LAW: for a column of N ≠ 0 real entries, the variance as E[a²] − E[a]² is the variance as
    E[(a − E a)²]. -/
theorem variance_eq {ι : Type} [Fintype ι] (a : ι → EReal) (ha : ∀ i, IsReal (a i)) (N : ℝ)
    (hN : (Fintype.card ι : ℝ) = N) (hN0 : N ≠ 0) :
    Ideal.div (∑ i, a i * a i) (N : EReal)
        - Ideal.div (∑ i, a i) (N : EReal) * Ideal.div (∑ i, a i) (N : EReal)
      = Ideal.div (∑ i, (a i - Ideal.div (∑ i, a i) (N : EReal))
          * (a i - Ideal.div (∑ i, a i) (N : EReal))) (N : EReal) := by
  choose r hr using ha
  obtain rfl : a = fun i => (r i : EReal) := funext hr
  rw [div_sum_sq_dev_coe r hN0, div_sum_coe r hN0]
  simp only [← EReal.coe_mul]
  rw [div_sum_coe (fun i => r i * r i) hN0, ← EReal.coe_sub, real_variance_eq r N hN hN0]

/-- The variance of a column of N ≠ 0 real entries is a nonnegative real. -/
theorem variance_nonneg {ι : Type} [Fintype ι] (a : ι → EReal) (ha : ∀ i, IsReal (a i)) (N : ℝ)
    (hN : (Fintype.card ι : ℝ) = N) (hN0 : N ≠ 0) :
    ∃ v : ℝ, 0 ≤ v ∧
      Ideal.div (∑ i, (a i - Ideal.div (∑ i, a i) (N : EReal))
          * (a i - Ideal.div (∑ i, a i) (N : EReal))) (N : EReal) = (v : EReal) := by
  choose r hr using ha
  obtain rfl : a = fun i => (r i : EReal) := funext hr
  exact ⟨_, real_variance_nonneg r _ N hN, div_sum_sq_dev_coe r hN0⟩

/-- The mean of a column of real entries over a nonzero real count is a real. -/
theorem mean_isReal {ι : Type} [Fintype ι] (a : ι → EReal) (ha : ∀ i, IsReal (a i)) (N : ℝ)
    (hN0 : N ≠ 0) : IsReal (Ideal.div (∑ i, a i) (N : EReal)) :=
  IsReal.div (IsReal.sum a ha) (IsReal.coe N) (by exact_mod_cast hN0)

/-! ### The same, with each sum written from an initial zero

A float sum on the host is "the initial value plus the sum"; with the initial value 0 that is the sum. -/

theorem variance_eq_zero_add {ι : Type} [Fintype ι] (a : ι → EReal) (ha : ∀ i, IsReal (a i)) (N : ℝ)
    (hN : (Fintype.card ι : ℝ) = N) (hN0 : N ≠ 0) :
    Ideal.div (0 + ∑ i, a i * a i) (N : EReal)
        - Ideal.div (0 + ∑ i, a i) (N : EReal) * Ideal.div (0 + ∑ i, a i) (N : EReal)
      = Ideal.div (0 + ∑ i, (a i - Ideal.div (0 + ∑ i, a i) (N : EReal))
          * (a i - Ideal.div (0 + ∑ i, a i) (N : EReal))) (N : EReal) := by
  simp only [zero_add]
  exact variance_eq a ha N hN hN0

theorem variance_nonneg_zero_add {ι : Type} [Fintype ι] (a : ι → EReal) (ha : ∀ i, IsReal (a i))
    (N : ℝ) (hN : (Fintype.card ι : ℝ) = N) (hN0 : N ≠ 0) :
    ∃ v : ℝ, 0 ≤ v ∧
      Ideal.div (0 + ∑ i, (a i - Ideal.div (0 + ∑ i, a i) (N : EReal))
          * (a i - Ideal.div (0 + ∑ i, a i) (N : EReal))) (N : EReal) = (v : EReal) := by
  simp only [zero_add]
  exact variance_nonneg a ha N hN hN0

/-! ### Regrouping a sum into blocks -/

/-- A sum over γ is the iterated sum over α then β along any bijection α × β ≃ γ. -/
theorem sum_regroup {α β γ M : Type*} [Fintype α] [Fintype β] [Fintype γ] [AddCommMonoid M]
    (e : α × β ≃ γ) (f : γ → M) : ∑ x, ∑ y, f (e (x, y)) = ∑ k, f k := by
  rw [← Fintype.sum_prod_type (fun p : α × β => f (e p))]
  exact Fintype.sum_equiv e _ _ fun _ => rfl

/-- The 200000 rows as 20 blocks of 10000: (b, r) ↦ 10000 · b + r. -/
def blockEquiv : Fin 20 × Fin 10000 ≃ Fin 200000 := finProdFinEquiv

theorem blockEquiv_val (b : Fin 20) (r : Fin 10000) :
    (blockEquiv (b, r)).val = 10000 * b.val + r.val := by
  show r.val + 10000 * b.val = 10000 * b.val + r.val
  exact Nat.add_comm _ _

/-- A sum over the 200000 rows is the sum over the 20 blocks of the sums over each block's 10000 rows. -/
theorem sum_blocks {M : Type*} [AddCommMonoid M] (f : Fin 200000 → M) :
    ∑ b : Fin 20, ∑ r : Fin 10000, f (blockEquiv (b, r)) = ∑ k, f k :=
  sum_regroup blockEquiv f

end Cert.Alg

end
-- ==== Proof.PoolSpec.lean ====
/-
  Self-attention pooling of one batch, as a function of its arrays, and the law that joins its two spellings.

  One batch has a slab x (4096 positions by 1024 features), a mask value per position, and two weight matrices.
  A position's sixteen logits are tanh(x W1) W2, multiplied by the mask and shifted by (1 - mask) times a large
  negative constant. Along the positions each of the sixteen columns is turned into weights exp(logit - column
  maximum) with column sum l. The pooled feature h is then written two ways:

    the kernel     sum over columns a of (1 / (l a * 16)) * (sum over positions s of weight s a * x s h),
    the reference  (sum over columns a of sum over positions s of (weight s a / l a) * x s h) / 16.

  Over the real numbers with every l a nonzero the two agree: divide each column's inner sum by l a, and the
  whole by 16. On the extended reals that identity needs every term to be a real number, which is where the
  finiteness of the inputs is used: real inputs give real logits, a real column maximum (the maximum of finitely
  many reals, taken from minus infinity), real positive weights and so a real positive column sum.
-/
import proofs.«156924_g77549929497260_feedfinal_589_2_alg».proof.Proof.LibRealVariance
import Idealize.ShloMosaic.Lib.ValueIdx
import Mathlib.Analysis.SpecialFunctions.Exp
import Mathlib.Data.Finset.Fold
import Mathlib.Data.Finset.Lattice.Fold

noncomputable section

namespace Cert.Pool

open Idealize.ShloMosaic Cert.Alg
open scoped BigOperators

/-! ### The three finite literals -/

/-- The pattern of 1.0. -/
abbrev one : EReal := Ideal.ofBits .f32 0x3F800000#32
/-- The pattern of the float nearest -1e20. -/
abbrev negBig : EReal := Ideal.ofBits .f32 0xE0AD78EC#32
/-- The pattern of 16.0. -/
abbrev sixteen : EReal := Ideal.ofBits .f32 0x41800000#32
/-- The pattern of minus infinity. -/
abbrev negInf : EReal := Ideal.ofBits .f32 0xFF800000#32

theorem one_eq : one = ((1 : ℝ) : EReal) := ofBits_one

theorem sixteen_eq : sixteen = ((16 : ℝ) : EReal) := by
  simp [Ideal.ofBits, Ideal.ieee, -EReal.coe_mul]; norm_num

theorem negInf_eq : negInf = ⊥ := by simp [Ideal.ofBits, Ideal.ieee]

theorem isReal_negBig : IsReal negBig := by
  refine ⟨-((11368684 : ℝ) * (2 : ℝ) ^ (43 : ℤ)), ?_⟩
  simp [Ideal.ofBits, Ideal.ieee, -EReal.coe_mul]

theorem isReal_one : IsReal one := ⟨1, one_eq⟩

/-! ### One batch's pooling, element by element -/

section Defs

variable (x : Fin 4096 → Fin 1024 → EReal) (mk : Fin 4096 → EReal)
  (w1 : Fin 1024 → Fin 128 → EReal) (w2 : Fin 128 → Fin 16 → EReal)

/-- The hidden layer: tanh of the slab times the first weight matrix. -/
def hid (s : Fin 4096) (u : Fin 128) : EReal := Ideal.tanh (∑ h, x s h * w1 h u)

/-- A position's logit in column a: the hidden row times the second matrix, masked. -/
def logit (s : Fin 4096) (a : Fin 16) : EReal :=
  (∑ u, hid x w1 s u * w2 u a) * mk s + (one - mk s) * negBig

/-- A column's maximum over the positions, taken from minus infinity. -/
def top (a : Fin 16) : EReal := (Finset.univ : Finset (Fin 4096)).fold max negInf (fun s => logit x mk w1 w2 s a)

/-- The unnormalised softmax weight. -/
def wt (s : Fin 4096) (a : Fin 16) : EReal := Ideal.exp (logit x mk w1 w2 s a - top x mk w1 w2 a)

/-- A column's sum of weights. -/
def den (a : Fin 16) : EReal := ∑ s, wt x mk w1 w2 s a

/-- The kernel's spelling of the pooled feature. -/
def kernelOut (h : Fin 1024) : EReal :=
  ∑ a, Ideal.div one (den x mk w1 w2 a * sixteen) * ∑ s, wt x mk w1 w2 s a * x s h

/-- The reference's spelling. -/
def refOut (h : Fin 1024) : EReal :=
  Ideal.div (∑ a, ∑ s, Ideal.div (wt x mk w1 w2 s a) (den x mk w1 w2 a) * x s h) sixteen

end Defs

/-! ### The arrays of one batch, by coordinates -/

open Idealize.ShloMosaic.ValueIdx in
/-- Batch b's slab. -/
def xb (X : (⟨3, ![16, 4096, 1024]⟩ : Shape).Idx → EReal) (b : Fin 16) : Fin 4096 → Fin 1024 → EReal :=
  fun s h => X (ix3 b s h)
open Idealize.ShloMosaic.ValueIdx in
/-- Batch b's mask row. -/
def mkb (M : (⟨2, ![16, 4096]⟩ : Shape).Idx → EReal) (b : Fin 16) : Fin 4096 → EReal := fun s => M (ix2 b s)
open Idealize.ShloMosaic.ValueIdx in
/-- The first weight matrix. -/
def w1f (W : (⟨2, ![1024, 128]⟩ : Shape).Idx → EReal) : Fin 1024 → Fin 128 → EReal := fun h u => W (ix2 h u)
open Idealize.ShloMosaic.ValueIdx in
/-- The second weight matrix. -/
def w2f (W : (⟨2, ![128, 16]⟩ : Shape).Idx → EReal) : Fin 128 → Fin 16 → EReal := fun u a => W (ix2 u a)

/-! ### The law over the reals, and carried to the extended reals -/

/-- Over ℝ with every column sum nonzero the two spellings agree. -/
theorem real_pool {S A : Type} [Fintype S] [Fintype A] (p : S → A → ℝ) (l : A → ℝ) (hl : ∀ a, l a ≠ 0)
    (r : S → ℝ) :
    ∑ a, 1 * (1 / (l a * 16)) * ∑ s, p s a * r s = (∑ a, ∑ s, p s a * (1 / l a) * r s) * (1 / 16) := by
  rw [Finset.sum_mul]
  refine Finset.sum_congr rfl fun a _ => ?_
  rw [Finset.mul_sum, Finset.sum_mul]
  refine Finset.sum_congr rfl fun s _ => ?_
  have := hl a
  field_simp

/-- The same on the extended reals, for real weights, real nonzero column sums and real features. -/
theorem ereal_pool {S A : Type} [Fintype S] [Fintype A] (p : S → A → ℝ) (l : A → ℝ) (hl : ∀ a, l a ≠ 0)
    (r : S → ℝ) :
    ∑ a, Ideal.div ((1 : ℝ) : EReal) ((l a : EReal) * ((16 : ℝ) : EReal)) * ∑ s, (p s a : EReal) * (r s : EReal)
      = Ideal.div (∑ a, ∑ s, Ideal.div (p s a : EReal) (l a : EReal) * (r s : EReal)) ((16 : ℝ) : EReal) := by
  have h16 : (16 : ℝ) ≠ 0 := by norm_num
  have hl16 : ∀ a, l a * 16 ≠ 0 := fun a => mul_ne_zero (hl a) h16
  simp only [← EReal.coe_mul]
  simp only [Ideal.div_coe (hl16 _), Ideal.div_coe (hl _), Ideal.div_coe h16, ← EReal.coe_mul, ← coe_finset_sum]
  rw [real_pool p l hl r]

end Cert.Pool

end
-- ==== Proof.KernelPay.lean ====
/-
  The kernel body's stored value, read at an index, is the kernel's spelling of the pooled feature of the block
  it loaded: the slab block [1, 4096, 1024], the mask block [1, 4096, 1] and the two weight matrices.

  The body's arithmetic is cut at its natural stages (slab and mask as matrices, hidden layer, logits, column
  maxima, weights, column sums, weights against the slab, reciprocal of 16 column sums, the final product), each
  read at coordinates: a shape cast that drops or adds a leading unit axis reads the same entry; a column [n, 1]
  broadcast along rows reads the column's entry; a row [1, n] broadcast down reads the row's entry; a reduction
  over the positions is a maximum from minus infinity, or a sum, over the 4096 positions.
-/
import proofs.«156924_g77549929497260_feedfinal_589_2_alg».proof.Proof.Gen.KernelIdeal.Skeleton
import proofs.«156924_g77549929497260_feedfinal_589_2_alg».proof.Proof.KernelDots
import proofs.«156924_g77549929497260_feedfinal_589_2_alg».proof.Proof.PoolSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx Cert.Pool Cert.LibIx2
open scoped BigOperators

/-! ### The stages of the body -/

section Stages

variable {F : FTy → Type} [FloatOps F]
variable (x0 : Vec F S1x4096x1024 .f32) (x1 : Vec F S1x4096x1 .f32) (x2 : Vec F S1024x128 .f32) (x3 : Vec F S128x16 .f32)

/-- The slab block as a matrix. -/
def kx : FVec F S4096x1024 .f32 := shapeCast S4096x1024 x0 shapeCasts_S1x4096x1024_S4096x1024
/-- The mask block as a column. -/
def km : FVec F S4096x1 .f32 := shapeCast S4096x1 x1 shapeCasts_S1x4096x1_S4096x1
/-- The hidden layer. -/
def khid : FVec F S4096x128 .f32 :=
  tanh (matmul dot_S4096x1024_S1024x128_S4096x128_1_0_0_1_n_n none (kx x0) x2 (constant S4096x128 .f32 0x00000000#32))
/-- The masked logits. -/
def klogit : FVec F S4096x16 .f32 :=
  addf (mulf (matmul dot_S4096x128_S128x16_S4096x16_1_0_0_1_n_n none (khid x0 x2) x3 (constant S4096x16 .f32 0x00000000#32))
      (broadcastTo S4096x16 (km x1) broadcasts_S4096x1_S4096x16))
    (broadcastTo S4096x16 (mulf (subf (broadcast S4096x1 (Scalar.ofBits .f32 0x3F800000#32)) (km x1))
      (broadcast S4096x1 (Scalar.ofBits .f32 0xE0AD78EC#32))) broadcasts_S4096x1_S4096x16)
/-- The column maxima. -/
def ktop : FVec F S16 .f32 :=
  multiReduction .maximumf [0] S16 (klogit x0 x1 x2 x3) 0xFF800000#32 reduces_S4096x16_S16 (.inl rfl) rfl
/-- The weights. -/
def kwt : FVec F S4096x16 .f32 :=
  exp (subf (klogit x0 x1 x2 x3)
    (broadcastTo S4096x16 (shapeCast S1x16 (ktop x0 x1 x2 x3) shapeCasts_S16_S1x16) broadcasts_S1x16_S4096x16))
/-- The column sums. -/
def kden : FVec F S16 .f32 :=
  multiReduction .add [0] S16 (kwt x0 x1 x2 x3) 0x00000000#32 reduces_S4096x16_S16 (.inl rfl) rfl
/-- The weights against the slab. -/
def kacc : FVec F S16x1024 .f32 :=
  matmul dot_S4096x16_S4096x1024_S16x1024_0_0_1_1_n_n none (kwt x0 x1 x2 x3) (kx x0) (constant S16x1024 .f32 0x00000000#32)
/-- One over sixteen column sums. -/
def kinv : FVec F S1x16 .f32 :=
  divf (broadcast S1x16 (Scalar.ofBits .f32 0x3F800000#32))
    (mulf (shapeCast S1x16 (kden x0 x1 x2 x3) shapeCasts_S16_S1x16) (broadcast S1x16 (Scalar.ofBits .f32 0x41800000#32)))
/-- The pooled row. -/
def kres : FVec F S1x1024 .f32 :=
  matmul dot_S1x16_S16x1024_S1x1024_1_0_0_1_n_n none (kinv x0 x1 x2 x3) (kacc x0 x1 x2 x3) (constant S1x1024 .f32 0x00000000#32)

/-- The body's stored value is the pooled row with a leading unit axis added. -/
theorem pay_eq : k0_pay1 x0 x1 x2 x3
    = shapeCast S1x1x1024 (kres x0 x1 x2 x3) shapeCasts_S1x1024_S1x1x1024 := rfl

end Stages

/-! ### Each stage at coordinates -/

variable (x0 : Vec Ideal S1x4096x1024 .f32) (x1 : Vec Ideal S1x4096x1 .f32) (x2 : Vec Ideal S1024x128 .f32)
  (x3 : Vec Ideal S128x16 .f32)

/-- The block's slab, mask row by coordinates. -/
abbrev xs : Fin 4096 → Fin 1024 → EReal := fun s h => x0 (ix3 (0 : Fin 1) s h)
abbrev ms : Fin 4096 → EReal := fun s => x1 (ix3 (0 : Fin 1) s (0 : Fin 1))

theorem kx_apply (s : Fin 4096) (h : Fin 1024) : kx x0 (ix2 s h) = x0 (ix3 (0 : Fin 1) s h) :=
  shapeCast_1ab_ab_apply x0 _ s h

theorem km_apply (s : Fin 4096) (z : Fin 1) : km x1 (ix2 s z) = x1 (ix3 (0 : Fin 1) s z) :=
  shapeCast_1ab_ab_apply x1 _ s z

theorem khid_apply (s : Fin 4096) (u : Fin 128) : khid x0 x2 (ix2 s u) = hid (xs x0) (w1f x2) s u := by
  show Ideal.tanh (matmul dot_S4096x1024_S1024x128_S4096x128_1_0_0_1_n_n none (kx x0) x2 (constant S4096x128 .f32 0x00000000#32) (ix2 s u)) = _
  rw [matmul_hid_apply]
  simp only [kx_apply]
  rfl

theorem klogit_apply (s : Fin 4096) (a : Fin 16) :
    klogit x0 x1 x2 x3 (ix2 s a) = logit (xs x0) (ms x1) (w1f x2) (w2f x3) s a := by
  show matmul dot_S4096x128_S128x16_S4096x16_1_0_0_1_n_n none (khid x0 x2) x3 (constant S4096x16 .f32 0x00000000#32) (ix2 s a)
        * broadcastTo S4096x16 (km x1) broadcasts_S4096x1_S4096x16 (ix2 s a)
      + broadcastTo S4096x16 (mulf (subf (broadcast S4096x1 (Scalar.ofBits .f32 0x3F800000#32)) (km x1))
          (broadcast S4096x1 (Scalar.ofBits .f32 0xE0AD78EC#32))) broadcasts_S4096x1_S4096x16 (ix2 s a) = _
  rw [matmul_lg_apply, broadcastTo_a1_ab_apply, broadcastTo_a1_ab_apply]
  show (∑ k : Fin 128, khid x0 x2 (ix2 s k) * x3 (ix2 k a)) * km x1 (ix2 s (0 : Fin 1))
      + (one - km x1 (ix2 s (0 : Fin 1))) * negBig = _
  simp only [khid_apply, km_apply]
  rfl

/-- The reduced index a with position k put back is (k, a). -/
theorem lift_col (h : S4096x16.Reduces [0] S16) (a : Fin 16) (k : Fin (S4096x16.size 0)) :
    h.lift (ix1 a) k = ix2 (⟨k.val, k.isLt⟩ : Fin 4096) a := by
  funext c; apply Fin.ext
  fin_cases c <;> rfl

theorem ktop_apply (a : Fin 16) : ktop x0 x1 x2 x3 (ix1 a) = top (xs x0) (ms x1) (w1f x2) (w2f x3) a := by
  refine (Ideal.multiReduction_maximumf_single (klogit x0 x1 x2 x3) 0xFF800000#32 reduces_S4096x16_S16 (.inl rfl) rfl
    (ix1 a)).trans ?_
  have hf : (klogit x0 x1 x2 x3 ∘ reduces_S4096x16_S16.lift (ix1 a))
      = fun s : Fin 4096 => logit (xs x0) (ms x1) (w1f x2) (w2f x3) s a := by
    funext k
    show klogit x0 x1 x2 x3 (reduces_S4096x16_S16.lift (ix1 a) k) = _
    rw [lift_col reduces_S4096x16_S16 a k]
    exact klogit_apply x0 x1 x2 x3 _ a
  rw [hf]
  rfl

theorem kwt_apply (s : Fin 4096) (a : Fin 16) :
    kwt x0 x1 x2 x3 (ix2 s a) = wt (xs x0) (ms x1) (w1f x2) (w2f x3) s a := by
  show Ideal.exp (klogit x0 x1 x2 x3 (ix2 s a)
      - broadcastTo S4096x16 (shapeCast S1x16 (ktop x0 x1 x2 x3) shapeCasts_S16_S1x16) broadcasts_S1x16_S4096x16 (ix2 s a)) = _
  rw [broadcastTo_1b_ab_apply, shapeCast_a_1a_apply, ktop_apply, klogit_apply]
  rfl

theorem kden_apply (a : Fin 16) : kden x0 x1 x2 x3 (ix1 a) = den (xs x0) (ms x1) (w1f x2) (w2f x3) a := by
  refine (Ideal.multiReduction_add_single (kwt x0 x1 x2 x3) 0x00000000#32 reduces_S4096x16_S16 (.inl rfl) rfl
    (ix1 a)).trans ?_
  show ∑ k : Fin 4096, kwt x0 x1 x2 x3 (reduces_S4096x16_S16.lift (ix1 a) k) = _
  refine Finset.sum_congr rfl fun k _ => ?_
  rw [lift_col reduces_S4096x16_S16 a k]
  exact kwt_apply x0 x1 x2 x3 _ a

theorem kacc_apply (a : Fin 16) (h : Fin 1024) :
    kacc x0 x1 x2 x3 (ix2 a h) = ∑ s : Fin 4096, wt (xs x0) (ms x1) (w1f x2) (w2f x3) s a * xs x0 s h := by
  unfold kacc
  rw [matmul_acc_apply]
  simp only [kwt_apply, kx_apply]

theorem kinv_apply (z : Fin 1) (a : Fin 16) :
    kinv x0 x1 x2 x3 (ix2 z a) = Ideal.div one (den (xs x0) (ms x1) (w1f x2) (w2f x3) a * sixteen) := by
  show Ideal.div one (shapeCast S1x16 (kden x0 x1 x2 x3) shapeCasts_S16_S1x16 (ix2 z a) * sixteen) = _
  rw [shapeCast_a_1a_apply, kden_apply]

theorem kres_apply (z : Fin 1) (h : Fin 1024) :
    kres x0 x1 x2 x3 (ix2 z h) = kernelOut (xs x0) (ms x1) (w1f x2) (w2f x3) h := by
  unfold kres
  rw [matmul_out_apply]
  simp only [kinv_apply, kacc_apply]
  rfl

/-- THE PAYLOAD AT AN INDEX: feature h of the stored block is the kernel's spelling of the pooled feature of the
    loaded slab and mask blocks. -/
theorem pay_apply (z z' : Fin 1) (h : Fin 1024) :
    k0_pay1 (F := Ideal) x0 x1 x2 x3 (ix3 z z' h) = kernelOut (xs x0) (ms x1) (w1f x2) (w2f x3) h := by
  rw [pay_eq, shapeCast_ab_1ab_apply]
  exact kres_apply x0 x1 x2 x3 z' h

end Cert.KernelIdeal.Hand

end
-- ==== Proof.KernelValue.lean ====
/-
  What the kernel program leaves in its result array: entry (b, h) is the kernel's spelling of the pooled feature
  h of batch b.

  The one region has sixteen grid points. At point t the slab window's block is batch t's [4096, 1024] slab, the
  mask window's block is batch t's mask column (the mask array is the argument with a trailing unit axis, written
  by the host before the region), the two weight windows are the whole matrices, and the output window's block is
  row t of the [16, 1, 1024] output. So what point t writes back is block t of ONE function of the arguments, the
  sixteen blocks cover the output, and the host's reshape after the region drops the unit axis.
-/
import proofs.«156924_g77549929497260_feedfinal_589_2_alg».proof.Proof.Gen.KernelIdeal.Frame
import proofs.«156924_g77549929497260_feedfinal_589_2_alg».proof.Proof.KernelPay
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Idealize.ShloMosaic.StableHlo Cert.Pool

variable (m : (ℓ : Loc nD τ sig) → Buf (Elt Ideal) ℓ) (ρ : Dev nD → PrngReg)

/-! ### The arguments and the result, as functions of coordinates -/

abbrev Xa (c : Dev nD) : S16x4096x1024.Idx → EReal := m ((c : Thread nD τ).loc main_arg0)
abbrev Ma (c : Dev nD) : S16x4096.Idx → EReal := m ((c : Thread nD τ).loc main_arg1)
abbrev W1a (c : Dev nD) : S1024x128.Idx → EReal := m ((c : Thread nD τ).loc main_arg2)
abbrev W2a (c : Dev nD) : S128x16.Idx → EReal := m ((c : Thread nD τ).loc main_arg3)

/-- The region's output array [16, 1, 1024]: entry (b, _, h). -/
def pooled3 (c : Dev nD) : S16x1x1024.Idx → EReal := fun i =>
  kernelOut (xb (Xa m c) (i 0)) (mkb (Ma m c) (i 0)) (w1f (W1a m c)) (w2f (W2a m c)) (i 2)

/-- The program's result [16, 1024]: entry (b, h). -/
def pooled (c : Dev nD) : S16x1024.Idx → EReal := fun j =>
  kernelOut (xb (Xa m c) (j 0)) (mkb (Ma m c) (j 0)) (w1f (W1a m c)) (w2f (W2a m c)) (j 1)

/-! ### The windows' blocks -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the slab, mask and output windows are at block (t, 0, 0), the weight
    windows at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- A grid point as a batch number. -/
abbrev bt (t : Fin cfg0.N) : Fin 16 := Fin.cast N_0 t

/-- The mask array the region finds: the argument with a trailing unit axis. -/
theorem V_mask (c : Dev nD) : (V m c main_v0 : S16x4096x1.Idx → EReal)
    = broadcastInDim S16x4096x1 ![0, 1] bcast_S16x4096_S16x4096x1_0_1 (Ma m c) := by
  show StableHlo.after hostOps0 (fun b => m (c, b)) (Proc.devRef .tc main_v0) = _
  after_results

theorem V_mask_apply (c : Dev nD) (b : Fin 16) (s : Fin 4096) (z : Fin 1) :
    (V m c main_v0 : S16x4096x1.Idx → EReal) (ix3 b s z) = Ma m c (ix2 b s) := by
  rw [V_mask]
  exact broadcastInDim_apply _ bcast_S16x4096_S16x4096x1_0_1 (Ma m c) (ix3 b s z) (ix2 b s) (fun a => match a with
    | ⟨0, _⟩ => by show b.val = if (16 : Nat) = 1 then 0 else b.val; rw [if_neg (by decide)]
    | ⟨1, _⟩ => by show s.val = if (4096 : Nat) = 1 then 0 else s.val; rw [if_neg (by decide)])

/-- The slab block at point t is batch t's slab. -/
theorem xblk_apply (c : Dev nD) (t : Fin cfg0.N) (z : Fin 1) (s : Fin 4096) (h : Fin 1024) :
    (iblk m c 0 t : Vec Ideal S1x4096x1024 .f32) (ix3 z s h) = Xa m c (ix3 (bt t) s h) := by
  obtain ⟨e0, e1, e2, -⟩ := idx_facts t
  have hV : (V m c main_arg0 : S16x4096x1024.Idx → EReal) = Xa m c := V_main_arg0 m c
  show (V m c main_arg0 : S16x4096x1024.Idx → EReal) (((cfg0.win 0).blk t).view.emb (ix3 z s h)) = _
  rw [hV]
  refine congrArg (Xa m c) (funext fun a => Fin.ext ?_)
  match a with
  | ⟨0, _⟩ => show win0_0.index t (0 : Fin 3) * 1 + 1 * z.val = t.val; have := z.isLt; omega
  | ⟨1, _⟩ => show win0_0.index t (1 : Fin 3) * 4096 + 1 * s.val = s.val; omega
  | ⟨2, _⟩ => show win0_0.index t (2 : Fin 3) * 1024 + 1 * h.val = h.val; omega

/-- The mask block at point t is batch t's mask row. -/
theorem mblk_apply (c : Dev nD) (t : Fin cfg0.N) (z : Fin 1) (s : Fin 4096) (z' : Fin 1) :
    (iblk m c 1 t : Vec Ideal S1x4096x1 .f32) (ix3 z s z') = Ma m c (ix2 (bt t) s) := by
  obtain ⟨-, -, -, e0, e1, e2, -⟩ := idx_facts t
  show (V m c main_v0 : S16x4096x1.Idx → EReal) (((cfg0.win 1).blk t).view.emb (ix3 z s z')) = _
  rw [← V_mask_apply m c (bt t) s (0 : Fin 1)]
  refine congrArg (V m c main_v0 : S16x4096x1.Idx → EReal) (funext fun a => Fin.ext ?_)
  match a with
  | ⟨0, _⟩ => show win0_1.index t (0 : Fin 3) * 1 + 1 * z.val = t.val; have := z.isLt; omega
  | ⟨1, _⟩ => show win0_1.index t (1 : Fin 3) * 4096 + 1 * s.val = s.val; omega
  | ⟨2, _⟩ => show win0_1.index t (2 : Fin 3) * 1 + 1 * z'.val = 0; have := z'.isLt; omega

/-- The first weight window's block is the whole matrix, at every point. -/
theorem w1blk_apply (c : Dev nD) (t : Fin cfg0.N) (h : Fin 1024) (u : Fin 128) :
    (iblk m c 2 t : Vec Ideal S1024x128 .f32) (ix2 h u) = W1a m c (ix2 h u) := by
  obtain ⟨-, -, -, -, -, -, e0, e1, -⟩ := idx_facts t
  have hV : (V m c main_arg2 : S1024x128.Idx → EReal) = W1a m c := V_main_arg2 m c
  show (V m c main_arg2 : S1024x128.Idx → EReal) (((cfg0.win 2).blk t).view.emb (ix2 h u)) = _
  rw [hV]
  refine congrArg (W1a m c) (funext fun a => Fin.ext ?_)
  match a with
  | ⟨0, _⟩ => show win0_2.index t (0 : Fin 2) * 1024 + 1 * h.val = h.val; omega
  | ⟨1, _⟩ => show win0_2.index t (1 : Fin 2) * 128 + 1 * u.val = u.val; omega

/-- So is the second's. -/
theorem w2blk_apply (c : Dev nD) (t : Fin cfg0.N) (u : Fin 128) (a : Fin 16) :
    (iblk m c 3 t : Vec Ideal S128x16 .f32) (ix2 u a) = W2a m c (ix2 u a) := by
  obtain ⟨-, -, -, -, -, -, -, -, e0, e1, -⟩ := idx_facts t
  have hV : (V m c main_arg3 : S128x16.Idx → EReal) = W2a m c := V_main_arg3 m c
  show (V m c main_arg3 : S128x16.Idx → EReal) (((cfg0.win 3).blk t).view.emb (ix2 u a)) = _
  rw [hV]
  refine congrArg (W2a m c) (funext fun d => Fin.ext ?_)
  match d with
  | ⟨0, _⟩ => show win0_3.index t (0 : Fin 2) * 128 + 1 * u.val = u.val; omega
  | ⟨1, _⟩ => show win0_3.index t (1 : Fin 2) * 16 + 1 * a.val = a.val; omega

/-! ### What a point writes back, the cover, the array after the region -/

/-- WHAT POINT t WRITES BACK is block t of the pooled output. -/
theorem flushed_eq (c : Dev nD) (t : Fin cfg0.N) :
    (dats m 0 c).flushed 4 t = ((cfg0.win 4).blk t).view.read (Elt Ideal) (pooled3 m c) := by
  show (cfg0.win 4).cut (grid0.coords t) ((dats m 0 c).after 4 t) = _
  rw [after0_4]
  unfold out0_4
  rw [View.canon_unit_zero hz3]
  simp only [View.ld_unit_zero (S := S1x4096x1024) hz3, View.ld_unit_zero (S := S1x4096x1) hz3,
    View.ld_unit_zero (S := S1024x128) hz2, View.ld_unit_zero (S := S128x16) hz2]
  obtain ⟨-, -, -, -, -, -, -, -, -, -, e0, e1, e2⟩ := idx_facts t
  funext j
  obtain ⟨z, z', h, rfl⟩ : ∃ (z : Fin 1) (z' : Fin 1) (h : Fin 1024), j = ix3 z z' h := ⟨j 0, j 1, j 2, eq_ix3 j⟩
  show k0_pay1 (F := Ideal) (iblk m c 0 t) (iblk m c 1 t) (iblk m c 2 t) (iblk m c 3 t) (ix3 z z' h)
    = pooled3 m c (((cfg0.win 4).blk t).view.emb (ix3 z z' h))
  refine (pay_apply (iblk m c 0 t) (iblk m c 1 t) (iblk m c 2 t) (iblk m c 3 t) z z' h).trans ?_
  have hx : xs (iblk m c 0 t) = xb (Xa m c) (bt t) := funext fun s => funext fun h' => xblk_apply m c t 0 s h'
  have hm : ms (iblk m c 1 t) = mkb (Ma m c) (bt t) := funext fun s => mblk_apply m c t 0 s 0
  have hw1 : w1f (iblk m c 2 t) = w1f (W1a m c) := funext fun h' => funext fun u => w1blk_apply m c t h' u
  have hw2 : w2f (iblk m c 3 t) = w2f (W2a m c) := funext fun u => funext fun a => w2blk_apply m c t u a
  rw [hx, hm, hw1, hw2]
  have he : ((cfg0.win 4).blk t).view.emb (ix3 z z' h) = ix3 (bt t) (0 : Fin 1) h := funext fun a => Fin.ext (by
    match a with
    | ⟨0, _⟩ => show win0_4.index t (0 : Fin 3) * 1 + 1 * z.val = t.val; have := z.isLt; omega
    | ⟨1, _⟩ => show win0_4.index t (1 : Fin 3) * 1 + 1 * z'.val = 0; have := z'.isLt; omega
    | ⟨2, _⟩ => show win0_4.index t (2 : Fin 3) * 1024 + 1 * h.val = h.val; omega)
  rw [he]
  rfl

/-- An index of the output is in point t's block iff each coordinate is in the block's range on its axis. -/
theorem mem_blk (t : Fin cfg0.N) (i : S16x1x1024.Idx) :
    i ∈ ((cfg0.win 4).blk t).view.set ↔ ∀ a : Fin 3, win0_4.index t a * S1x1x1024.size a ≤ (i a).val
      ∧ (i a).val < win0_4.index t a * S1x1x1024.size a + S1x1x1024.size a := by
  show i ∈ ((View.whole main_v1).slice (win0_4.rect t)).set ↔ _
  rw [View.set_slice_whole, Rect.mem_set_unit]
  exact Iff.rfl

/-- THE OUTPUT ARRAY after the region: row b of it is in point b's block. -/
theorem final3 (c : Dev nD) : (dats m 0 c).arrAt 4 cfg0.N = pooled3 m c :=
  (dats m 0 c).arrAt_eq_of_cover 4 (pooled3 m c) (fun t _ => flushed_eq m c t) fun i => by
    refine ⟨Fin.cast N_0.symm (i 0), flush0_4 _, ?_⟩
    obtain ⟨-, -, -, -, -, -, -, -, -, -, e0, e1, e2⟩ := idx_facts (Fin.cast N_0.symm (i 0))
    rw [mem_blk]
    intro a
    have h1 : (i 1).val < 1 := (i 1).isLt
    have h2 : (i 2).val < 1024 := (i 2).isLt
    match a with
    | ⟨0, _⟩ =>
      show win0_4.index (Fin.cast N_0.symm (i 0)) (0 : Fin 3) * 1 ≤ (i 0).val
        ∧ (i 0).val < win0_4.index (Fin.cast N_0.symm (i 0)) (0 : Fin 3) * 1 + 1
      rw [e0]; show (i 0).val * 1 ≤ (i 0).val ∧ (i 0).val < (i 0).val * 1 + 1; omega
    | ⟨1, _⟩ =>
      show win0_4.index (Fin.cast N_0.symm (i 0)) (1 : Fin 3) * 1 ≤ (i 1).val
        ∧ (i 1).val < win0_4.index (Fin.cast N_0.symm (i 0)) (1 : Fin 3) * 1 + 1
      omega
    | ⟨2, _⟩ =>
      show win0_4.index (Fin.cast N_0.symm (i 0)) (2 : Fin 3) * 1024 ≤ (i 2).val
        ∧ (i 2).val < win0_4.index (Fin.cast N_0.symm (i 0)) (2 : Fin 3) * 1024 + 1024
      omega

/-! ### The host's reshape after the region, and the run -/

/-- The program's result: the output array with its unit axis dropped. -/
theorem tail_eq (c : Dev nD) :
    Pipeline.afterTail₀ cfgs (dats m) 0 (V0 m) [hostOps1] c main_v2 = pooled m c := by
  unfold Pipeline.afterTail₀
  show StableHlo.after hostOps1 _ (Proc.devRef .tc main_v2) = _
  after_results
  funext j
  obtain ⟨b, h, rfl⟩ : ∃ (b : Fin 16) (h : Fin 1024), j = ix2 b h := ⟨j 0, j 1, eq_ix2 j⟩
  show shapeCast S16x1024 (Pipeline.withArrays spec0 c (V0 m c) (fun w => (dats m 0 c).arrAt w cfg0.N)
      (Proc.devRef .tc main_v1)) shapeCasts_S16x1x1024_S16x1024 (ix2 b h) = _
  rw [show Pipeline.withArrays spec0 c (V0 m c) (fun w => (dats m 0 c).arrAt w cfg0.N) (Proc.devRef .tc main_v1)
      = pooled3 m c from (Pipeline.withArrays_arr spec0 launch0.win.arr_inj c _ _ 4).trans (final3 m c)]
  refine (shapeCast_apply (pooled3 m c) shapeCasts_S16x1x1024_S16x1024 (ix2 b h) (ix3 b (0 : Fin 1) h) ?_).trans rfl
  rw [Shape.rowMajor_val_three, Shape.rowMajor_val_two]
  show (b.val * 1 + 0) * 1024 + h.val = b.val * 1024 + h.val
  omega

/-- THE RUN, READ: every weakly fair execution ends with the result array at the pooled features and the four
    arguments unchanged. -/
theorem run : θ_run defs (onTc (τ := τ) (main (F := Ideal))) ⟨m, fun _ => 0, ρ⟩ fun r => ∀ c : Dev nD,
      r.2.mem ((c.tc : Thread nD τ).loc main_v2) = pooled m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Hand

end
-- ==== Proof.RefValue.lean ====
/-
  The reference program read at an index: each of its stages, at coordinates, is the matching quantity of the
  pooling of one batch (the batch's slab, mask row and the two weight matrices).

  Stage by stage: the first contraction and tanh give the hidden layer; the second contraction, the mask product
  and the shifted term give the logit; the reduction with maximum over the positions, then the maximum with
  minus infinity, give the column maximum (the maximum of minus infinity and anything is that thing); the
  exponential gives the weight; the sum from zero over the positions the column sum; the quotient, the batched
  contraction with the slab, the sum from zero over the sixteen columns and the quotient by 16 give the
  reference's spelling of the pooled feature.
-/
import proofs.«156924_g77549929497260_feedfinal_589_2_alg».proof.Proof.Gen.ReferenceIdeal.Read
import proofs.«156924_g77549929497260_feedfinal_589_2_alg».proof.Proof.PoolSpec
import Idealize.ShloMosaic.Lib.ValueIdx
import Idealize.ShloMosaic.PureOps.Ideal.Laws

noncomputable section

namespace Cert.ReferenceIdeal.Hand

open Cert.ReferenceIdeal Cert.ReferenceIdeal.Read Idealize.ShloMosaic Idealize.ShloMosaic.ValueIdx Cert.Pool
open scoped BigOperators

variable (x0 : (⟨S16x4096x1024, .f32⟩ : BufTy).Contents (Elt Ideal)) (x1 : (⟨S16x4096, .f32⟩ : BufTy).Contents (Elt Ideal))
  (x2 : (⟨S1024x128, .f32⟩ : BufTy).Contents (Elt Ideal)) (x3 : (⟨S128x16, .f32⟩ : BufTy).Contents (Elt Ideal))

/-! ### The generated index maps at coordinates -/

theorem lidx0 (b : Fin 16) (s : Fin 4096) (u : Fin 128) (k : Fin 1024) : lidx_main_v0 (ix3 b s u) k = ix3 b s k :=
  funext fun a => by match a with | ⟨0, _⟩ => rfl | ⟨1, _⟩ => rfl | ⟨2, _⟩ => rfl
theorem ridx0 (b : Fin 16) (s : Fin 4096) (u : Fin 128) (k : Fin 1024) : ridx_main_v0 (ix3 b s u) k = ix2 k u :=
  funext fun a => by match a with | ⟨0, _⟩ => rfl | ⟨1, _⟩ => rfl
theorem lidx2 (b : Fin 16) (s : Fin 4096) (a : Fin 16) (k : Fin 128) : lidx_main_v2 (ix3 b s a) k = ix3 b s k :=
  funext fun c => by match c with | ⟨0, _⟩ => rfl | ⟨1, _⟩ => rfl | ⟨2, _⟩ => rfl
theorem ridx2 (b : Fin 16) (s : Fin 4096) (a : Fin 16) (k : Fin 128) : ridx_main_v2 (ix3 b s a) k = ix2 k a :=
  funext fun c => by match c with | ⟨0, _⟩ => rfl | ⟨1, _⟩ => rfl
theorem idx3 (b : Fin 16) (s : Fin 4096) (z : Fin 1) : idx_main_v3 (ix3 b s z) = ix2 b s :=
  funext fun c => by match c with | ⟨0, _⟩ => rfl | ⟨1, _⟩ => rfl
theorem idx4 (b : Fin 16) (s : Fin 4096) (a : Fin 16) : idx_main_v4 (ix3 b s a) = ix3 b s (0 : Fin 1) :=
  funext fun c => by match c with | ⟨0, _⟩ => rfl | ⟨1, _⟩ => rfl | ⟨2, _⟩ => rfl
theorem idx10 (b : Fin 16) (s : Fin 4096) (a : Fin 16) : idx_main_v10 (ix3 b s a) = ix3 b s (0 : Fin 1) :=
  funext fun c => by match c with | ⟨0, _⟩ => rfl | ⟨1, _⟩ => rfl | ⟨2, _⟩ => rfl
theorem idx15 (b : Fin 16) (z : Fin 1) (a : Fin 16) : idx_main_v15 (ix3 b z a) = ix2 b a :=
  funext fun c => by match c with | ⟨0, _⟩ => rfl | ⟨1, _⟩ => rfl
theorem idx16 (b : Fin 16) (s : Fin 4096) (a : Fin 16) : idx_main_v16 (ix3 b s a) = ix3 b (0 : Fin 1) a :=
  funext fun c => by match c with | ⟨0, _⟩ => rfl | ⟨1, _⟩ => rfl | ⟨2, _⟩ => rfl
theorem idx19 (b : Fin 16) (a : Fin 16) (k : Fin 4096) : idx_main_v19 (ix2 b a) k = ix3 b k a :=
  funext fun c => by match c with | ⟨0, _⟩ => rfl | ⟨1, _⟩ => rfl | ⟨2, _⟩ => rfl
theorem idx20 (b : Fin 16) (z : Fin 1) (a : Fin 16) : idx_main_v20 (ix3 b z a) = ix2 b a :=
  funext fun c => by match c with | ⟨0, _⟩ => rfl | ⟨1, _⟩ => rfl
theorem idx21 (b : Fin 16) (s : Fin 4096) (a : Fin 16) : idx_main_v21 (ix3 b s a) = ix3 b (0 : Fin 1) a :=
  funext fun c => by match c with | ⟨0, _⟩ => rfl | ⟨1, _⟩ => rfl | ⟨2, _⟩ => rfl
theorem lidx23 (b : Fin 16) (a : Fin 16) (h : Fin 1024) (k : Fin 4096) : lidx_main_v23 (ix3 b a h) k = ix3 b k a :=
  funext fun c => by match c with | ⟨0, _⟩ => rfl | ⟨1, _⟩ => rfl | ⟨2, _⟩ => rfl
theorem ridx23 (b : Fin 16) (a : Fin 16) (h : Fin 1024) (k : Fin 4096) : ridx_main_v23 (ix3 b a h) k = ix3 b k h :=
  funext fun c => by match c with | ⟨0, _⟩ => rfl | ⟨1, _⟩ => rfl | ⟨2, _⟩ => rfl
theorem idx24 (b : Fin 16) (h : Fin 1024) (k : Fin 16) : idx_main_v24 (ix2 b h) k = ix3 b k h :=
  funext fun c => by match c with | ⟨0, _⟩ => rfl | ⟨1, _⟩ => rfl | ⟨2, _⟩ => rfl

/-! ### The stages -/

/-- The hidden layer. -/
theorem ref_hid (b : Fin 16) (s : Fin 4096) (u : Fin 128) :
    val_main_v1 (F := Ideal) x0 x2 (ix3 b s u) = hid (xb x0 b) (w1f x2) s u := by
  rw [val_main_v1_apply, val_main_v0_apply]
  simp only [Ideal.hostUnary_tanh_def, lidx0, ridx0]
  rfl

/-- The logit. -/
theorem ref_logit (b : Fin 16) (s : Fin 4096) (a : Fin 16) :
    val_main_v11 (F := Ideal) x0 x1 x2 x3 (ix3 b s a) = logit (xb x0 b) (mkb x1 b) (w1f x2) (w2f x3) s a := by
  simp only [val_main_v11_apply, val_main_v5_apply, val_main_v2_apply, val_main_v4_apply, val_main_v3_apply,
    val_main_v10_apply, val_main_v9_apply, val_main_v7_apply, val_main_v6_apply, val_main_v8_apply,
    val_main_cst_apply, val_main_cst_0_apply, lidx2, ridx2, idx3, idx4, idx10, ref_hid,
    Ideal.mulf_def, Ideal.addf_def, Ideal.subf_def, Ideal.ofBits_def]
  rfl

/-- The reduced index (b, a) with position k put back is (b, k, a). -/
theorem lift_max (h : S16x4096x16.Reduces [1] S16x16) (b a : Fin 16) (k : Fin (S16x4096x16.size 1)) :
    h.lift (ix2 b a) k = ix3 b (⟨k.val, k.isLt⟩ : Fin 4096) a := by
  funext c; apply Fin.ext
  fin_cases c <;> rfl

/-- The column maximum: the reduction from minus infinity, then the maximum with minus infinity. -/
theorem ref_top (b a : Fin 16) :
    val_main_v14 (F := Ideal) x0 x1 x2 x3 (ix2 b a) = top (xb x0 b) (mkb x1 b) (w1f x2) (w2f x3) a := by
  have hred : S16x4096x16.Reduces [1] S16x16 := by decide
  rw [val_main_v14_apply, val_main_v13_apply, val_main_cst_2_apply]
  unfold val_main_v12
  rw [Host.reduce_eq_fold_single FloatOps.maximumf _ _ _ hred _]
  have hf : (val_main_v11 (F := Ideal) x0 x1 x2 x3 ∘ hred.lift (ix2 b a))
      = fun s : Fin 4096 => logit (xb x0 b) (mkb x1 b) (w1f x2) (w2f x3) s a := by
    funext k
    show val_main_v11 (F := Ideal) x0 x1 x2 x3 (hred.lift (ix2 b a) k) = _
    rw [lift_max hred b a k]
    exact ref_logit x0 x1 x2 x3 b _ a
  rw [hf, val_main_cst_1_apply]
  show max negInf ((Finset.univ : Finset (Fin 4096)).fold max negInf _) = _
  exact max_eq_right ((Finset.le_fold_max _).mpr (Or.inl le_rfl))

/-- The weight. -/
theorem ref_wt (b : Fin 16) (s : Fin 4096) (a : Fin 16) :
    val_main_v18 (F := Ideal) x0 x1 x2 x3 (ix3 b s a) = wt (xb x0 b) (mkb x1 b) (w1f x2) (w2f x3) s a := by
  rw [val_main_v18_apply, val_main_v17_apply, val_main_v16_apply, val_main_v15_apply, idx16, idx15, ref_top, ref_logit]
  rfl

/-- The column sum, from the initial zero. -/
theorem ref_den (b a : Fin 16) :
    val_main_v19 (F := Ideal) x0 x1 x2 x3 (ix2 b a) = den (xb x0 b) (mkb x1 b) (w1f x2) (w2f x3) a := by
  rw [val_main_v19_apply, val_main_cst_3_apply]
  simp only [idx19, ref_wt, Ideal.ofBits_def, Ideal.ofBits_zero_f32, zero_add]
  rfl

/-- The reference's result at (b, h). -/
theorem ref_out (b : Fin 16) (h : Fin 1024) :
    val_main_v26 (F := Ideal) x0 x1 x2 x3 (ix2 b h) = refOut (xb x0 b) (mkb x1 b) (w1f x2) (w2f x3) h := by
  rw [val_main_v26_apply, val_main_v25_apply, val_main_cst_5_apply, val_main_v24_apply, val_main_cst_4_apply]
  simp only [idx24, val_main_v23_apply, lidx23, ridx23, val_main_v22_apply, val_main_v21_apply, val_main_v20_apply,
    idx21, idx20, ref_wt, ref_den, Ideal.ofBits_def, Ideal.ofBits_zero_f32, zero_add, Ideal.hostDivf_def]
  rfl

end Cert.ReferenceIdeal.Hand

end
-- ==== Proof.PoolLaw.lean ====
/-
  For real inputs the kernel's and the reference's spellings of the pooled feature agree.

  Real inputs give a real hidden layer (tanh of a real is a real), real logits, and a real column maximum: the
  maximum from minus infinity over the 4096 positions is below plus infinity because every logit is, and above
  minus infinity because the first logit is. So every weight is the exponential of a real, a positive real, and
  every column sum is a sum of 4096 positive reals, a positive real, in particular not zero. The law over the
  reals then applies.
-/
import proofs.«156924_g77549929497260_feedfinal_589_2_alg».proof.Proof.PoolSpec

noncomputable section

namespace Cert.Pool

open Idealize.ShloMosaic Cert.Alg
open scoped BigOperators

theorem isReal_tanh {y : EReal} (hy : IsReal y) : IsReal (Ideal.tanh y) := by
  obtain ⟨r, rfl⟩ := hy
  exact ⟨Real.tanh r, Ideal.tanh_coe r⟩

theorem exp_pos_of_isReal {y : EReal} (hy : IsReal y) : ∃ r : ℝ, 0 < r ∧ Ideal.exp y = (r : EReal) := by
  obtain ⟨r, rfl⟩ := hy
  exact ⟨Real.exp r, Real.exp_pos r, Ideal.exp_coe r⟩

section Real

variable (x : Fin 4096 → Fin 1024 → EReal) (mk : Fin 4096 → EReal)
  (w1 : Fin 1024 → Fin 128 → EReal) (w2 : Fin 128 → Fin 16 → EReal)
  (hx : ∀ s h, IsReal (x s h)) (hm : ∀ s, IsReal (mk s)) (hw1 : ∀ h u, IsReal (w1 h u)) (hw2 : ∀ u a, IsReal (w2 u a))

include hx hw1 in
theorem isReal_hid (s : Fin 4096) (u : Fin 128) : IsReal (hid x w1 s u) :=
  isReal_tanh (IsReal.sum _ fun h => (hx s h).mul (hw1 h u))

include hx hm hw1 hw2 in
theorem isReal_logit (s : Fin 4096) (a : Fin 16) : IsReal (logit x mk w1 w2 s a) :=
  ((IsReal.sum _ fun u => (isReal_hid x w1 hx hw1 s u).mul (hw2 u a)).mul (hm s)).add
    ((isReal_one.sub (hm s)).mul isReal_negBig)

include hx hm hw1 hw2 in
theorem isReal_top (a : Fin 16) : IsReal (top x mk w1 w2 a) := by
  unfold top
  rw [negInf_eq, isReal_iff]
  constructor
  · refine ne_of_lt ((Finset.fold_max_lt _).mpr ⟨bot_lt_top, fun s _ => ?_⟩)
    obtain ⟨r, hr⟩ := isReal_logit x mk w1 w2 hx hm hw1 hw2 s a
    rw [hr]; exact EReal.coe_lt_top r
  · refine ne_of_gt ((Finset.lt_fold_max _).mpr (Or.inr ⟨0, Finset.mem_univ _, ?_⟩))
    obtain ⟨r, hr⟩ := isReal_logit x mk w1 w2 hx hm hw1 hw2 0 a
    rw [hr]; exact EReal.bot_lt_coe r

include hx hm hw1 hw2 in
theorem wt_pos (s : Fin 4096) (a : Fin 16) : ∃ p : ℝ, 0 < p ∧ wt x mk w1 w2 s a = (p : EReal) :=
  exp_pos_of_isReal ((isReal_logit x mk w1 w2 hx hm hw1 hw2 s a).sub (isReal_top x mk w1 w2 hx hm hw1 hw2 a))

include hx hm hw1 hw2 in
/-- THE LAW at real inputs. -/
theorem kernelOut_eq_refOut (h : Fin 1024) : kernelOut x mk w1 w2 h = refOut x mk w1 w2 h := by
  choose p hp0 hp using fun s a => wt_pos x mk w1 w2 hx hm hw1 hw2 s a
  choose r hr using hx
  have hden : ∀ a, den x mk w1 w2 a = ((∑ s, p s a : ℝ) : EReal) := fun a => by
    unfold den
    simp only [hp]
    exact (coe_finset_sum _ _).symm
  have hl : ∀ a, (∑ s, p s a) ≠ 0 := fun a =>
    ne_of_gt (Finset.sum_pos (fun s _ => hp0 s a) Finset.univ_nonempty)
  unfold kernelOut refOut
  simp only [hden, hp, hr, one_eq, sixteen_eq]
  exact ereal_pool p (fun a => ∑ s, p s a) hl (fun s => r s h)

end Real

end Cert.Pool

end
-- ==== Proof.Finite.lean ====
/-
  The precondition, read: every entry of the four inputs is a real number.

  The precondition is the conjunction of four tests, one per input: "every entry's absolute value is below plus
  infinity". A conjunction of bits that is 1 has every bit 1; a reduction by "and" to a single bit that is 1 had
  a 1 at every entry; and an extended real whose absolute value max x (-x) is below plus infinity is neither
  infinity.
-/
import proofs.«156924_g77549929497260_feedfinal_589_2_alg».proof.Pre_finite_inputs
import proofs.«156924_g77549929497260_feedfinal_589_2_alg».proof.Proof.Gen.Pre_finite_inputs
import proofs.«156924_g77549929497260_feedfinal_589_2_alg».proof.Proof.LibRealVariance
import Idealize.ShloMosaic.Lib.ReduceAll
import Idealize.ShloMosaic.Lib.Affine
import Idealize.ShloMosaic.Lib.ValueIdx

noncomputable section

namespace Cert.Pre_finite_inputs.Hand

open Cert.Pre_finite_inputs Cert.Pre_finite_inputs.Gen Idealize.ShloMosaic Cert.Alg

instance : Subsingleton S_.Idx := ⟨fun a b => funext fun d => d.elim0⟩

/-- An entry that passes the test "absolute value below the pattern of plus infinity" is a real number. -/
theorem isReal_of_cmp {x : EReal}
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  apply isReal_of_abs_lt_top
  simp only [Ideal.cmp] at h
  by_cases hlt : max x (-x) < ⊤
  · exact hlt
  · simp [hlt] at h

/-- THE PRECONDITION READ: all four inputs hold real numbers only. -/
theorem real_of_pre (X : FVec Ideal S16x4096x1024 .f32) (M : FVec Ideal S16x4096 .f32)
    (W1 : FVec Ideal S1024x128 .f32) (W2 : FVec Ideal S128x16 .f32)
    (h : fn (F := Ideal) X M W1 W2 = fun _ => 1#1) :
    (∀ i, IsReal (X i)) ∧ (∀ i, IsReal (M i)) ∧ (∀ i, IsReal (W1 i)) ∧ (∀ i, IsReal (W2 i)) := by
  have h0 := congrFun h ValueIdx.ix0
  dsimp only [fn, fn_part1] at h0
  obtain ⟨h012, h3⟩ := IntOp.andi_eq_one.mp h0
  obtain ⟨h01, h2⟩ := IntOp.andi_eq_one.mp h012
  obtain ⟨h0', h1⟩ := IntOp.andi_eq_one.mp h01
  exact ⟨fun i => isReal_of_cmp (Host.reduce_andi_all _ _ _ _ _ h0' i),
    fun i => isReal_of_cmp (Host.reduce_andi_all _ _ _ _ _ h1 i),
    fun i => isReal_of_cmp (Host.reduce_andi_all _ _ _ _ _ h2 i),
    fun i => isReal_of_cmp (Host.reduce_andi_all _ _ _ _ _ h3 i)⟩

end Cert.Pre_finite_inputs.Hand

end
-- ==== Proof.lean ====
/-
  Self-attention pooling, a fused kernel against its jnp reference, over the extended reals.

  Both programs compute, for each of 16 batches, logits tanh(x W1) W2 masked and shifted, a softmax over the 4096
  positions in each of 16 columns, the softmax-weighted sums of the slab's rows, and the mean over the 16 columns.
  The kernel keeps the unnormalised weights exp(logit - column maximum), contracts them with the slab, and then
  multiplies column a by 1 / (16 · column sum); the reference divides every weight by its column sum first and
  divides the final sum by 16. With real inputs every column sum is a positive real and the two agree (the law
  is stated and proved apart); the precondition says exactly that the inputs are real.

  The three programs run: the kernel programs by their frame runs, the reference by its run read back. Nothing
  was rewritten when the kernel was idealized, so that claim is empty.
-/
import proofs.«156924_g77549929497260_feedfinal_589_2_alg».proof.Defs
import proofs.«156924_g77549929497260_feedfinal_589_2_alg».proof.Proof.Gen.Kernel
import proofs.«156924_g77549929497260_feedfinal_589_2_alg».proof.Proof.Gen.Kernel.Skeleton
import proofs.«156924_g77549929497260_feedfinal_589_2_alg».proof.Proof.Gen.Kernel.Launch
import proofs.«156924_g77549929497260_feedfinal_589_2_alg».proof.Proof.Gen.Kernel.Points
import proofs.«156924_g77549929497260_feedfinal_589_2_alg».proof.Proof.Gen.Kernel.Frame
import proofs.«156924_g77549929497260_feedfinal_589_2_alg».proof.Proof.Gen.KernelIdeal
import proofs.«156924_g77549929497260_feedfinal_589_2_alg».proof.Proof.Gen.KernelIdeal.Skeleton
import proofs.«156924_g77549929497260_feedfinal_589_2_alg».proof.Proof.Gen.KernelIdeal.Launch
import proofs.«156924_g77549929497260_feedfinal_589_2_alg».proof.Proof.Gen.KernelIdeal.Points
import proofs.«156924_g77549929497260_feedfinal_589_2_alg».proof.Proof.Gen.KernelIdeal.Frame
import proofs.«156924_g77549929497260_feedfinal_589_2_alg».proof.Proof.Gen.ReferenceIdeal
import proofs.«156924_g77549929497260_feedfinal_589_2_alg».proof.Proof.Gen.Pre_finite_inputs
import proofs.«156924_g77549929497260_feedfinal_589_2_alg».proof.Proof.Gen.ReferenceIdeal.Run
import proofs.«156924_g77549929497260_feedfinal_589_2_alg».proof.Proof.Gen.ReferenceIdeal.Read
import proofs.«156924_g77549929497260_feedfinal_589_2_alg».proof.Proof.KernelValue
import proofs.«156924_g77549929497260_feedfinal_589_2_alg».proof.Proof.RefValue
import proofs.«156924_g77549929497260_feedfinal_589_2_alg».proof.Proof.PoolLaw
import proofs.«156924_g77549929497260_feedfinal_589_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at the kernel's spelling of the pooled features, the reference's at the
    reference's spelling, of arguments that agree and are real: one array, by the law. -/
theorem algebraic : Cert.algebraic_KernelIdeal_ReferenceIdeal := by
  intro m ρ m' ρ' hpre hagree
  refine ⟨fun c => Cert.KernelIdeal.Hand.pooled m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2.1, (hagree c).2.2.2]
  obtain ⟨hX, hM, hW1, hW2⟩ := Cert.Pre_finite_inputs.Hand.real_of_pre _ _ _ _ (hpre c)
  funext j
  obtain ⟨b, h, rfl⟩ : ∃ (b : Fin 16) (h : Fin 1024), j = ix2 b h := ⟨j 0, j 1, eq_ix2 j⟩
  rw [Cert.ReferenceIdeal.Hand.ref_out]
  exact (Cert.Pool.kernelOut_eq_refOut _ _ _ _ (fun s h' => hX _) (fun s => hM _) (fun h' u => hW1 _)
    (fun u a => hW2 _) h).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
